-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S_ : Shape := ⟨0, ![]⟩

class Facts : Prop where
  bcast_S_S256x1024x64 : S_.BroadcastsInDim S256x1024x64 (![] : Fin 0 → Fin S256x1024x64.rank)
  reducesTo_S256x1024x64_S_d0_1_2 : S256x1024x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x128 .f32) (main_arg22 : FVec F S1 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S8 .f32) (main_arg19 : FVec F S8x128 .f32) (main_arg20 : FVec F S8 .f32) (main_arg21 : FVec F S1x128 .f32) (main_arg22 : FVec F S1 .f32) (main_v83 : IVec S_ 1) (main_v84 : FVec F S8x128 .f32) (main_cst_32 : FVec F S_ .f32) : IVec S_ 1 :=
  let main_v85 : FVec F S8x128 .f32 := broadcastInDim S8x128 ![] bcast_S_S8x128 main_cst_32
  let main_v86 : IVec S8x128 1 := cmpf .olt main_v84 main_v85
  let main_c_33 : IVec S_ 1 := constantI S_ 1 1#1
  let main_v87 : IVec S_ 1 := (fun x v => Host.reduce IntOp.andi x v reducesTo_S8x128_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8x128 .f32 := Host.absf main_arg19
  let main_cst_36 : FVec F S_ .f32 := constant S_ .f32 0x7F800000#32
  let main_v95 : FVec F S8x128 .f32 := broadcastInDim S8x128 ![] bcast_S_S8x128 main_cst_36
  let main_v96 : IVec S8x128 1 := cmpf .olt main_v94 main_v95
  let main_c_37 : IVec S_ 1 := constantI S_ 1 1#1
  let main_v97 : IVec S_ 1 := (fun x v => Host.reduce IntOp.andi x v reducesTo_S8x128_S_d0_1 h_S_) main_v96 main_c_37
  let main_v98 : IVec S_ 1 := andi main_v93 main_v97
  let main_v99 : FVec F S8 .f32 := Host.absf main_arg20
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v63 : IVec S_ 1) (main_v67 : IVec S_ 1) : IVec S_ 1 :=
  let main_v68 : IVec S_ 1 := andi main_v63 main_v67
  let main_v69 : FVec F S512x128 .f32 := Host.absf main_arg14
  let main_cst_26 : FVec F S_ .f32 := constant S_ .f32 0x7F800000#32
  let main_v70 : FVec F S512x128 .f32 := broadcastInDim S512x128 ![] bcast_S_S512x128 main_cst_26
  let main_v71 : IVec S512x128 1 := cmpf .olt main_v69 main_v70
  let main_c_27 : IVec S_ 1 := constantI S_ 1 1#1
  let main_v72 : IVec S_ 1 := (fun x v => Host.reduce IntOp.andi x v reducesTo_S512x128_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S8x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg13
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128x64 .f32) (main_arg6 : FVec F S128 .f32) (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S256x1024x64 .f32) (main_arg1 : FVec F S128x64 .f32) (main_arg2 : FVec F S128 .f32) (main_arg3 : FVec F S128x128 .f32) (main_arg4 : FVec F S128 .f32) (main_arg5 : FVec F S128x64 .f32) (main_arg6 : FVec F S128 .f32) (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) : IVec S_ 1 :=
  let main_v0 : FVec F S256x1024x64 .f32 := Host.absf main_arg0
  let main_cst : FVec F S_ .f32 := constant S_ .f32 0x7F800000#32
  let main_v1 : FVec F S256x1024x64 .f32 := broadcastInDim S256x1024x64 ![] bcast_S_S256x1024x64 main_cst
  let main_v2 : IVec S256x1024x64 1 := cmpf .olt main_v0 main_v1
  let main_c : IVec S_ 1 := constantI S_ 1 1#1
  let main_v3 : IVec S_ 1 := (fun x v => Host.reduce IntOp.andi x v reducesTo_S256x1024x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S262144x64 : Shape := ⟨2, ![262144, 64]⟩
abbrev S64x128 : Shape := ⟨2, ![64, 128]⟩
abbrev S128x512 : Shape := ⟨2, ![128, 512]⟩
abbrev S128x8 : Shape := ⟨2, ![128, 8]⟩
abbrev S128x1 : Shape := ⟨2, ![128, 1]⟩
abbrev S262144x8 : Shape := ⟨2, ![262144, 8]⟩
abbrev S262144x1 : Shape := ⟨2, ![262144, 1]⟩
abbrev S2048x64 : Shape := ⟨2, ![2048, 64]⟩
abbrev S2048x8 : Shape := ⟨2, ![2048, 8]⟩
abbrev S2048x1 : Shape := ⟨2, ![2048, 1]⟩
abbrev S2048x128 : Shape := ⟨2, ![2048, 128]⟩
abbrev S2048x512 : Shape := ⟨2, ![2048, 512]⟩
abbrev S1x512 : Shape := ⟨2, ![1, 512]⟩
abbrev S1x8 : Shape := ⟨2, ![1, 8]⟩
abbrev S1x1 : Shape := ⟨2, ![1, 1]⟩
abbrev S256x1024x8 : Shape := ⟨3, ![256, 1024, 8]⟩
abbrev S256x1024x1 : Shape := ⟨3, ![256, 1024, 1]⟩

abbrev nBuf : Space → Nat
  | .hbm => 39
  | .vmem => 28
  | .smem => 0
  | _ => 0

abbrev bufTy : (tb : Table) → Fin (tcTables nBuf tb) → BufTy
  | .hbm, ⟨0, _⟩ => ⟨S256x1024x64, .f32⟩
  | .hbm, ⟨1, _⟩ => ⟨S128x64, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S512x128, .f32⟩
  | .hbm, ⟨14, _⟩ => ⟨S512x128, .f32⟩
  | .hbm, ⟨15, _⟩ => ⟨S512, .f32⟩
  | .hbm, ⟨16, _⟩ => ⟨S512, .f32⟩
  | .hbm, ⟨17, _⟩ => ⟨S8x128, .f32⟩
  | .hbm, ⟨18, _⟩ => ⟨S8, .f32⟩
  | .hbm, ⟨19, _⟩ => ⟨S8x128, .f32⟩
  | .hbm, ⟨20, _⟩ => ⟨S8, .f32⟩
  | .hbm, ⟨21, _⟩ => ⟨S1x128, .f32⟩
  | .hbm, ⟨22, _⟩ => ⟨S1, .f32⟩
  | .hbm, ⟨23, _⟩ => ⟨S262144x64, .f32⟩
  | .hbm, ⟨24, _⟩ => ⟨S64x128, .f32⟩
  | .hbm, ⟨25, _⟩ => ⟨S128x128, .f32⟩
  | .hbm, ⟨26, _⟩ => ⟨S64x128, .f32⟩
  | .hbm, ⟨27, _⟩ => ⟨S128x128, .f32⟩
  | .hbm, ⟨28, _⟩ => ⟨S128x512, .f32⟩
  | .hbm, ⟨29, _⟩ => ⟨S128x512, .f32⟩
  | .hbm, ⟨30, _⟩ => ⟨S128x8, .f32⟩
  | .hbm, ⟨31, _⟩ => ⟨S128x8, .f32⟩
  | .hbm, ⟨32, _⟩ => ⟨S128x1, .f32⟩
  | .hbm, ⟨33, _⟩ => ⟨S262144x8, .f32⟩
  | .hbm, ⟨34, _⟩ => ⟨S262144x8, .f32⟩
  | .hbm, ⟨35, _⟩ => ⟨S262144x1, .f32⟩
  | .hbm, ⟨36, _⟩ => ⟨S256x1024x8, .f32⟩
  | .hbm, ⟨37, _⟩ => ⟨S256x1024x8, .f32⟩
  | .hbm, ⟨38, _⟩ => ⟨S256x1024x1, .f32⟩
  | .local _ .vmem, ⟨0, _⟩ => ⟨S2048x64, .f32⟩
  | .local _ .vmem, ⟨1, _⟩ => ⟨S2048x64, .f32⟩
  | .local _ .vmem, ⟨2, _⟩ => ⟨S64x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x512, .f32⟩
  | .local _ .vmem, ⟨11, _⟩ => ⟨S512, .f32⟩
  | .local _ .vmem, ⟨12, _⟩ => ⟨S512, .f32⟩
  | .local _ .vmem, ⟨13, _⟩ => ⟨S128x512, .f32⟩
  | .local _ .vmem, ⟨14, _⟩ => ⟨S512, .f32⟩
  | .local _ .vmem, ⟨15, _⟩ => ⟨S512, .f32⟩
  | .local _ .vmem, ⟨16, _⟩ => ⟨S128x8, .f32⟩
  | .local _ .vmem, ⟨17, _⟩ => ⟨S8, .f32⟩
  | .local _ .vmem, ⟨18, _⟩ => ⟨S128x8, .f32⟩
  | .local _ .vmem, ⟨19, _⟩ => ⟨S8, .f32⟩
  | .local _ .vmem, ⟨20, _⟩ => ⟨S128x1, .f32⟩
  | .local _ .vmem, ⟨21, _⟩ => ⟨S1, .f32⟩
  | .local _ .vmem, ⟨22, _⟩ => ⟨S2048x8, .f32⟩
  | .local _ .vmem, ⟨23, _⟩ => ⟨S2048x8, .f32⟩
  | .local _ .vmem, ⟨24, _⟩ => ⟨S2048x8, .f32⟩
  | .local _ .vmem, ⟨25, _⟩ => ⟨S2048x8, .f32⟩
  | .local _ .vmem, ⟨26, _⟩ => ⟨S2048x1, .f32⟩
  | .local _ .vmem, ⟨27, _⟩ => ⟨S2048x1, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10_0 : Ref sig .tc := ⟨.hbm, 33, rfl⟩
abbrev main_v10_1 : Ref sig .tc := ⟨.hbm, 34, rfl⟩
abbrev main_v10_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x8 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S256x1024x64_S262144x64 : S256x1024x64.ShapeCasts S262144x64
  transposes_S128x64_S64x128_1_0 : S128x64.Transposes [1, 0] S64x128
  transposes_S128x128_S128x128_1_0 : S128x128.Transposes [1, 0] S128x128
  transposes_S512x128_S128x512_1_0 : S512x128.Transposes [1, 0] S128x512
  transposes_S8x128_S128x8_1_0 : S8x128.Transposes [1, 0] S128x8
  transposes_S1x128_S128x1_1_0 : S1x128.Transposes [1, 0] S128x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  slices_S2048x512_o0_0_S2048x128 : S2048x512.Slices ![0, 0] S2048x128
  slices_S2048x512_o0_256_S2048x128 : S2048x512.Slices ![0, 256] S2048x128
  slices_S2048x512_o0_384_S2048x128 : S2048x512.Slices ![0, 384] S2048x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x8_S2048x8_0_0 : ∀ a, (![0, 0] : Fin 2 → Nat) a + S2048x8.size a ≤ S2048x8.size a
  h_S2048x8 : 0 < S2048x8.numel
  inb_S2048x1_S2048x1_0_0 : ∀ a, (![0, 0] : Fin 2 → Nat) a + S2048x1.size a ≤ S2048x1.size a
  h_S2048x1 : 0 < S2048x1.numel
  shapeCasts_S262144x8_S256x1024x8 : S262144x8.ShapeCasts S256x1024x8
  shapeCasts_S262144x1_S256x1024x1 : S262144x1.ShapeCasts S256x1024x1
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S2048x128_S128x512_S2048x512_1_0_0_1_n_n_wf : DotDims.WF S2048x128 S128x512 S2048x512 [1] [0] [0] [1] [] []
  dot_S2048x128_S128x8_S2048x8_1_0_0_1_n_n_wf : DotDims.WF S2048x128 S128x8 S2048x8 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x512.size a
  hwx0_9 : ∀ i : grid0.Coords, EltTy.bits .f32 = 32 ∨ (Rect.block (s := S128x512) S128x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S128x512.size a
  hwx0_12 : ∀ i : grid0.Coords, EltTy.bits .f32 = 32 ∨ (Rect.block (s := S128x512) S128x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x8.size a ≤ S128x8.size a
  hwx0_15 : ∀ i : grid0.Coords, EltTy.bits .f32 = 32 ∨ (Rect.block (s := S128x8) S128x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S8.size a ≤ S8.size a
  hwx0_16 : ∀ i : grid0.Coords, EltTy.bits .f32 = 32 ∨ (Rect.block (s := S8) S8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x8.size a ≤ S128x8.size a
  hwx0_17 : ∀ i : grid0.Coords, EltTy.bits .f32 = 32 ∨ (Rect.block (s := S128x8) S128x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S8.size a ≤ S8.size a
  hwx0_18 : ∀ i : grid0.Coords, EltTy.bits .f32 = 32 ∨ (Rect.block (s := S8) S8.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x1.size a ≤ S128x1.size a
  hwx0_19 : ∀ i : grid0.Coords, EltTy.bits .f32 = 32 ∨ (Rect.block (s := S128x1) S128x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1.size a ≤ S1.size a
  hwx0_20 : ∀ i : grid0.Coords, EltTy.bits .f32 = 32 ∨ (Rect.block (s := S1) S1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x8.size a ≤ S262144x8.size a
  hwx0_21 : ∀ i : grid0.Coords, EltTy.bits .f32 = 32 ∨ (Rect.block (s := S262144x8) S2048x8.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x8.size a ≤ S262144x8.size a
  hwx0_22 : ∀ i : grid0.Coords, EltTy.bits .f32 = 32 ∨ (Rect.block (s := S262144x8) S2048x8.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x1.size a ≤ S262144x1.size a
  hwx0_23 : ∀ i : grid0.Coords, EltTy.bits .f32 = 32 ∨ (Rect.block (s := S262144x1) S2048x1.size (cc0_transform_23 i) (hinb0_23 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S128x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S128x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S128x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S128x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10_0) S2048x8.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v10_1) S2048x8.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v10_2) S2048x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S256x1024x128 : Shape := ⟨3, ![256, 1024, 128]⟩
abbrev S1x1x128 : Shape := ⟨3, ![1, 1, 128]⟩
abbrev S_ : Shape := ⟨0, ![]⟩
abbrev S256x1024x512 : Shape := ⟨3, ![256, 1024, 512]⟩
abbrev S1x1x512 : Shape := ⟨3, ![1, 1, 512]⟩
abbrev S256x1024x8 : Shape := ⟨3, ![256, 1024, 8]⟩
abbrev S1x1x8 : Shape := ⟨3, ![1, 1, 8]⟩
abbrev S256x1024x1 : Shape := ⟨3, ![256, 1024, 1]⟩
abbrev S1x1x1 : Shape := ⟨3, ![1, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S256x1024x64, .f32⟩
  | .hbm, ⟨1, _⟩ => ⟨S128x64, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S512x128, .f32⟩
  | .hbm, ⟨14, _⟩ => ⟨S512x128, .f32⟩
  | .hbm, ⟨15, _⟩ => ⟨S512, .f32⟩
  | .hbm, ⟨16, _⟩ => ⟨S512, .f32⟩
  | .hbm, ⟨17, _⟩ => ⟨S8x128, .f32⟩
  | .hbm, ⟨18, _⟩ => ⟨S8, .f32⟩
  | .hbm, ⟨19, _⟩ => ⟨S8x128, .f32⟩
  | .hbm, ⟨20, _⟩ => ⟨S8, .f32⟩
  | .hbm, ⟨21, _⟩ => ⟨S1x128, .f32⟩
  | .hbm, ⟨22, _⟩ => ⟨S1, .f32⟩
  | .hbm, ⟨23, _⟩ => ⟨S256x1024x128, .f32⟩
  | .hbm, ⟨24, _⟩ => ⟨S1x1x128, .f32⟩
  | .hbm, ⟨25, _⟩ => ⟨S256x1024x128, .f32⟩
  | .hbm, ⟨26, _⟩ => ⟨S256x1024x128, .f32⟩
  | .hbm, ⟨27, _⟩ => ⟨S_, .f32⟩
  | .hbm, ⟨28, _⟩ => ⟨S256x1024x128, .f32⟩
  | .hbm, ⟨29, _⟩ => ⟨S256x1024x128, .f32⟩
  | .hbm, ⟨30, _⟩ => ⟨S256x1024x128, .f32⟩
  | .hbm, ⟨31, _⟩ => ⟨S1x1x128, .f32⟩
  | .hbm, ⟨32, _⟩ => ⟨S256x1024x128, .f32⟩
  | .hbm, ⟨33, _⟩ => ⟨S256x1024x128, .f32⟩
  | .hbm, ⟨34, _⟩ => ⟨S_, .f32⟩
  | .hbm, ⟨35, _⟩ => ⟨S256x1024x128, .f32⟩
  | .hbm, ⟨36, _⟩ => ⟨S256x1024x128, .f32⟩
  | .hbm, ⟨37, _⟩ => ⟨S256x1024x512, .f32⟩
  | .hbm, ⟨38, _⟩ => ⟨S1x1x512, .f32⟩
  | .hbm, ⟨39, _⟩ => ⟨S256x1024x512, .f32⟩
  | .hbm, ⟨40, _⟩ => ⟨S256x1024x512, .f32⟩
  | .hbm, ⟨41, _⟩ => ⟨S1x1x512, .f32⟩
  | .hbm, ⟨42, _⟩ => ⟨S256x1024x512, .f32⟩
  | .hbm, ⟨43, _⟩ => ⟨S256x1024x512, .f32⟩
  | .hbm, ⟨44, _⟩ => ⟨S256x1024x128, .f32⟩
  | .hbm, ⟨45, _⟩ => ⟨S256x1024x128, .f32⟩
  | .hbm, ⟨46, _⟩ => ⟨S256x1024x128, .f32⟩
  | .hbm, ⟨47, _⟩ => ⟨S256x1024x128, .f32⟩
  | .hbm, ⟨48, _⟩ => ⟨S256x1024x128, .f32⟩
  | .hbm, ⟨49, _⟩ => ⟨S256x1024x128, .f32⟩
  | .hbm, ⟨50, _⟩ => ⟨S_, .f32⟩
  | .hbm, ⟨51, _⟩ => ⟨S256x1024x128, .f32⟩
  | .hbm, ⟨52, _⟩ => ⟨S256x1024x128, .f32⟩
  | .hbm, ⟨53, _⟩ => ⟨S_, .f32⟩
  | .hbm, ⟨54, _⟩ => ⟨S256x1024x128, .f32⟩
  | .hbm, ⟨55, _⟩ => ⟨S256x1024x128, .f32⟩
  | .hbm, ⟨56, _⟩ => ⟨S256x1024x128, .f32⟩
  | .hbm, ⟨57, _⟩ => ⟨S256x1024x128, .f32⟩
  | .hbm, ⟨58, _⟩ => ⟨S256x1024x128, .f32⟩
  | .hbm, ⟨59, _⟩ => ⟨S256x1024x128, .f32⟩
  | .hbm, ⟨60, _⟩ => ⟨S_, .f32⟩
  | .hbm, ⟨61, _⟩ => ⟨S256x1024x128, .f32⟩
  | .hbm, ⟨62, _⟩ => ⟨S256x1024x128, .f32⟩
  | .hbm, ⟨63, _⟩ => ⟨S_, .f32⟩
  | .hbm, ⟨64, _⟩ => ⟨S256x1024x128, .f32⟩
  | .hbm, ⟨65, _⟩ => ⟨S256x1024x128, .f32⟩
  | .hbm, ⟨66, _⟩ => ⟨S256x1024x128, .f32⟩
  | .hbm, ⟨67, _⟩ => ⟨S256x1024x128, .f32⟩
  | .hbm, ⟨68, _⟩ => ⟨S256x1024x128, .f32⟩
  | .hbm, ⟨69, _⟩ => ⟨S1x1x128, .f32⟩
  | .hbm, ⟨70, _⟩ => ⟨S256x1024x128, .f32⟩
  | .hbm, ⟨71, _⟩ => ⟨S256x1024x128, .f32⟩
  | .hbm, ⟨72, _⟩ => ⟨S_, .f32⟩
  | .hbm, ⟨73, _⟩ => ⟨S256x1024x128, .f32⟩
  | .hbm, ⟨74, _⟩ => ⟨S256x1024x128, .f32⟩
  | .hbm, ⟨75, _⟩ => ⟨S256x1024x128, .f32⟩
  | .hbm, ⟨76, _⟩ => ⟨S1x1x128, .f32⟩
  | .hbm, ⟨77, _⟩ => ⟨S256x1024x128, .f32⟩
  | .hbm, ⟨78, _⟩ => ⟨S256x1024x128, .f32⟩
  | .hbm, ⟨79, _⟩ => ⟨S_, .f32⟩
  | .hbm, ⟨80, _⟩ => ⟨S256x1024x128, .f32⟩
  | .hbm, ⟨81, _⟩ => ⟨S256x1024x128, .f32⟩
  | .hbm, ⟨82, _⟩ => ⟨S256x1024x512, .f32⟩
  | .hbm, ⟨83, _⟩ => ⟨S1x1x512, .f32⟩
  | .hbm, ⟨84, _⟩ => ⟨S256x1024x512, .f32⟩
  | .hbm, ⟨85, _⟩ => ⟨S256x1024x512, .f32⟩
  | .hbm, ⟨86, _⟩ => ⟨S1x1x512, .f32⟩
  | .hbm, ⟨87, _⟩ => ⟨S256x1024x512, .f32⟩
  | .hbm, ⟨88, _⟩ => ⟨S256x1024x512, .f32⟩
  | .hbm, ⟨89, _⟩ => ⟨S256x1024x128, .f32⟩
  | .hbm, ⟨90, _⟩ => ⟨S256x1024x128, .f32⟩
  | .hbm, ⟨91, _⟩ => ⟨S256x1024x128, .f32⟩
  | .hbm, ⟨92, _⟩ => ⟨S256x1024x128, .f32⟩
  | .hbm, ⟨93, _⟩ => ⟨S256x1024x128, .f32⟩
  | .hbm, ⟨94, _⟩ => ⟨S256x1024x128, .f32⟩
  | .hbm, ⟨95, _⟩ => ⟨S_, .f32⟩
  | .hbm, ⟨96, _⟩ => ⟨S256x1024x128, .f32⟩
  | .hbm, ⟨97, _⟩ => ⟨S256x1024x128, .f32⟩
  | .hbm, ⟨98, _⟩ => ⟨S_, .f32⟩
  | .hbm, ⟨99, _⟩ => ⟨S256x1024x128, .f32⟩
  | .hbm, ⟨100, _⟩ => ⟨S256x1024x128, .f32⟩
  | .hbm, ⟨101, _⟩ => ⟨S256x1024x128, .f32⟩
  | .hbm, ⟨102, _⟩ => ⟨S256x1024x128, .f32⟩
  | .hbm, ⟨103, _⟩ => ⟨S256x1024x128, .f32⟩
  | .hbm, ⟨104, _⟩ => ⟨S256x1024x128, .f32⟩
  | .hbm, ⟨105, _⟩ => ⟨S_, .f32⟩
  | .hbm, ⟨106, _⟩ => ⟨S256x1024x128, .f32⟩
  | .hbm, ⟨107, _⟩ => ⟨S256x1024x128, .f32⟩
  | .hbm, ⟨108, _⟩ => ⟨S_, .f32⟩
  | .hbm, ⟨109, _⟩ => ⟨S256x1024x128, .f32⟩
  | .hbm, ⟨110, _⟩ => ⟨S256x1024x128, .f32⟩
  | .hbm, ⟨111, _⟩ => ⟨S256x1024x128, .f32⟩
  | .hbm, ⟨112, _⟩ => ⟨S256x1024x128, .f32⟩
  | .hbm, ⟨113, _⟩ => ⟨S256x1024x8, .f32⟩
  | .hbm, ⟨114, _⟩ => ⟨S1x1x8, .f32⟩
  | .hbm, ⟨115, _⟩ => ⟨S256x1024x8, .f32⟩
  | .hbm, ⟨116, _⟩ => ⟨S256x1024x8, .f32⟩
  | .hbm, ⟨117, _⟩ => ⟨S256x1024x8, .f32⟩
  | .hbm, ⟨118, _⟩ => ⟨S1x1x8, .f32⟩
  | .hbm, ⟨119, _⟩ => ⟨S256x1024x8, .f32⟩
  | .hbm, ⟨120, _⟩ => ⟨S256x1024x8, .f32⟩
  | .hbm, ⟨121, _⟩ => ⟨S256x1024x8, .f32⟩
  | .hbm, ⟨122, _⟩ => ⟨S256x1024x1, .f32⟩
  | .hbm, ⟨123, _⟩ => ⟨S1x1x1, .f32⟩
  | .hbm, ⟨124, _⟩ => ⟨S256x1024x1, .f32⟩
  | .hbm, ⟨125, _⟩ => ⟨S256x1024x1, .f32⟩
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_cst_0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_cst_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_cst : Ref sig .tc := ⟨.hbm, 72, rfl⟩
abbrev main_call2_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call3_cst : Ref sig .tc := ⟨.hbm, 79, rfl⟩
abbrev main_call3_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_3 : Ref sig .tc := ⟨.hbm, 95, rfl⟩
abbrev main_v60 : Ref sig .tc := ⟨.hbm, 96, rfl⟩
abbrev main_v61 : Ref sig .tc := ⟨.hbm, 97, rfl⟩
abbrev main_cst_4 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_5 : Ref sig .tc := ⟨.hbm, 105, rfl⟩
abbrev main_v68 : Ref sig .tc := ⟨.hbm, 106, rfl⟩
abbrev main_v69 : Ref sig .tc := ⟨.hbm, 107, rfl⟩
abbrev main_cst_6 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x1024x128_0_1_2 : S1x1x128.BroadcastsInDim S256x1024x128 (![0, 1, 2] : Fin 3 → Fin S256x1024x128.rank)
  bcast_S_S256x1024x128 : S_.BroadcastsInDim S256x1024x128 (![] : Fin 0 → Fin S256x1024x128.rank)
  bcast_S512_S1x1x512_2 : S512.BroadcastsInDim S1x1x512 (![2] : Fin 1 → Fin S1x1x512.rank)
  bcast_S1x1x512_S256x1024x512_0_1_2 : S1x1x512.BroadcastsInDim S256x1024x512 (![0, 1, 2] : Fin 3 → Fin S256x1024x512.rank)
  slices_S256x1024x512_S256x1024x128_0_0_0 : S256x1024x512.Slices ![0, 0, 0] S256x1024x128
  slices_S256x1024x512_S256x1024x128_0_0_128 : S256x1024x512.Slices ![0, 0, 128] S256x1024x128
  slices_S256x1024x512_S256x1024x128_0_0_256 : S256x1024x512.Slices ![0, 0, 256] S256x1024x128
  slices_S256x1024x512_S256x1024x128_0_0_384 : S256x1024x512.Slices ![0, 0, 384] S256x1024x128
  bcast_S8_S1x1x8_2 : S8.BroadcastsInDim S1x1x8 (![2] : Fin 1 → Fin S1x1x8.rank)
  bcast_S1x1x8_S256x1024x8_0_1_2 : S1x1x8.BroadcastsInDim S256x1024x8 (![0, 1, 2] : Fin 3 → Fin S256x1024x8.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  dot_S256x1024x64_S128x64_S256x1024x128_2_1_01_0_n_n_wf : DotDims.WF S256x1024x64 S128x64 S256x1024x128 [2] [1] [0, 1] [0] [] []
  dot_S256x1024x128_S128x128_S256x1024x128_2_1_01_0_n_n_wf : DotDims.WF S256x1024x128 S128x128 S256x1024x128 [2] [1] [0, 1] [0] [] []
  dot_S256x1024x128_S512x128_S256x1024x512_2_1_01_0_n_n_wf : DotDims.WF S256x1024x128 S512x128 S256x1024x512 [2] [1] [0, 1] [0] [] []
  dot_S256x1024x128_S8x128_S256x1024x8_2_1_01_0_n_n_wf : DotDims.WF S256x1024x128 S8x128 S256x1024x8 [2] [1] [0, 1] [0] [] []
  dot_S256x1024x128_S1x128_S256x1024x1_2_1_01_0_n_n_wf : DotDims.WF S256x1024x128 S1x128 S256x1024x1 [2] [1] [0, 1] [0] [] []

variable [Facts₀]

def dot_S256x1024x64_S128x64_S256x1024x128_2_1_01_0_n_n : DotDims S256x1024x64 S128x64 S256x1024x128 where
  lhsContracting := [2]
  rhsContracting := [1]
  lhsNonContracting := [0, 1]
  rhsNonContracting := [0]
  lhsBatch := []
  rhsBatch := []
  wf := dot_S256x1024x64_S128x64_S256x1024x128_2_1_01_0_n_n_wf
def dot_S256x1024x128_S128x128_S256x1024x128_2_1_01_0_n_n : DotDims S256x1024x128 S128x128 S256x1024x128 where
  lhsContracting := [2]
  rhsContracting := [1]
  lhsNonContracting := [0, 1]
  rhsNonContracting := [0]
  lhsBatch := []
  rhsBatch := []
  wf := dot_S256x1024x128_S128x128_S256x1024x128_2_1_01_0_n_n_wf
def dot_S256x1024x128_S512x128_S256x1024x512_2_1_01_0_n_n : DotDims S256x1024x128 S512x128 S256x1024x512 where
  lhsContracting := [2]
  rhsContracting := [1]
  lhsNonContracting := [0, 1]
  rhsNonContracting := [0]
  lhsBatch := []
  rhsBatch := []
  wf := dot_S256x1024x128_S512x128_S256x1024x512_2_1_01_0_n_n_wf
def dot_S256x1024x128_S8x128_S256x1024x8_2_1_01_0_n_n : DotDims S256x1024x128 S8x128 S256x1024x8 where
  lhsContracting := [2]
  rhsContracting := [1]
  lhsNonContracting := [0, 1]
  rhsNonContracting := [0]
  lhsBatch := []
  rhsBatch := []
  wf := dot_S256x1024x128_S8x128_S256x1024x8_2_1_01_0_n_n_wf
def dot_S256x1024x128_S1x128_S256x1024x1_2_1_01_0_n_n : DotDims S256x1024x128 S1x128 S256x1024x1 where
  lhsContracting := [2]
  rhsContracting := [1]
  lhsNonContracting := [0, 1]
  rhsNonContracting := [0]
  lhsBatch := []
  rhsBatch := []
  wf := dot_S256x1024x128_S1x128_S256x1024x1_2_1_01_0_n_n_wf

class Facts : Prop extends Facts₀ where

variable [Facts]
-- ==== Proof.Spec.lean ====
/-
  The network one row at a time, over the extended reals.

  A row `x` of 64 features goes through two dense layers with a rectifier, then a gate layer of 512 outputs
  with two biases; the 512 gates are read as four groups of 128 (input, forget, cell candidate, output), and
  with a zero initial state the cell output is `σ(o) · tanh (σ(i) · tanh g)`: the forget group is never read.
  Two such branches (an actor and a critic, with their own weights) feed three heads: the mean and the
  exponential of a second affine map on the actor's cell output, and one affine map on the critic's.
  Weights are indexed output-first, `w j k` (the layout the arguments come in).
-/
import Idealize.ShloMosaic.PureOps.Ideal.Laws

noncomputable section

namespace Cert.Spec

open Idealize.ShloMosaic

/-- The value of the all-zero 32-bit pattern (kept as a pattern: both programs spell it so). -/
abbrev zero : EReal := Ideal.ofBits .f32 0x00000000#32

/-- An affine map: output `j` is `∑ k, x k · w j k + b j`. -/
def affine {K N : ℕ} (x : Fin K → EReal) (w : Fin N → Fin K → EReal) (b : Fin N → EReal) (j : Fin N) : EReal :=
  (∑ k : Fin K, x k * w j k) + b j

/-- A dense layer with a rectifier. -/
def layer {K N : ℕ} (x : Fin K → EReal) (w : Fin N → Fin K → EReal) (b : Fin N → EReal) (j : Fin N) : EReal :=
  max (affine x w b j) zero

/-- The 512 gate pre-activations of one branch. -/
def gates (x : Fin 64 → EReal) (w1 : Fin 128 → Fin 64 → EReal) (b1 : Fin 128 → EReal)
    (w2 : Fin 128 → Fin 128 → EReal) (b2 : Fin 128 → EReal)
    (wih : Fin 512 → Fin 128 → EReal) (bih bhh : Fin 512 → EReal) (g : Fin 512) : EReal :=
  affine (layer (layer x w1 b1) w2 b2) wih bih g + bhh g

/-- The cell output from the gates, from a zero state: `σ(o) · tanh (σ(i) · tanh g)`. -/
def cell (G : Fin 512 → EReal) (j : Fin 128) : EReal :=
  Ideal.logistic (G ⟨384 + j.val, by omega⟩)
    * Ideal.tanh (Ideal.logistic (G ⟨j.val, by omega⟩) * Ideal.tanh (G ⟨256 + j.val, by omega⟩))

/-- One branch: the cell output of a row. -/
def branch (x : Fin 64 → EReal) (w1 : Fin 128 → Fin 64 → EReal) (b1 : Fin 128 → EReal)
    (w2 : Fin 128 → Fin 128 → EReal) (b2 : Fin 128 → EReal)
    (wih : Fin 512 → Fin 128 → EReal) (bih bhh : Fin 512 → EReal) : Fin 128 → EReal :=
  cell (gates x w1 b1 w2 b2 wih bih bhh)

end Cert.Spec

end
-- ==== Proof.LibPlainMatmul.lean ====
/-
  A plain matrix product read at an index.

  For the dimension numbers of an `M×K` by `K×N` product (left operand contracted on its last axis, right
  operand on its first, no batch axis) the accumulating matrix product into a zero accumulator is, over the
  extended reals, the textbook sum: entry `(p, q)` is `∑ k, lhs (p, k) * rhs (k, q)`.  The statement is at
  symbolic extents, for the library's record `DotDims.plain M K N`; a record that lists the same axes is that
  record (its remaining field is a proof).
-/
import Idealize.ShloMosaic.PureOps.Ideal.Laws
import Idealize.ShloMosaic.Lib.ValueIdx

noncomputable section

namespace Cert.LibPlainMatmul

open Idealize.ShloMosaic Idealize.ShloMosaic.ValueIdx

variable {M K N : ℕ}

/-- The left operand's row coordinate is the result's row. -/
theorem lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right operand's row coordinate is the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right operand's column coordinate is the result's column. -/
theorem rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(p, q)` of a plain matrix product into a zero accumulator is `∑ k, lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant ⟨2, ![M, N]⟩ .f32 0x00000000#32) (ix2 p q)
      = ∑ k : Fin K, lhs (ix2 p k) * rhs (ix2 k q) := by
  show FloatOps.matmul (DotDims.plain M K N) prec lhs rhs (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Cert.LibPlainMatmul

end
-- ==== Proof.KernelRows.lean ====
/-
  One row of a block through the kernel body, over the extended reals.

  Every value the body computes is a matrix with 2048 rows, and row `p` of each depends only on row `p` of the
  block of inputs: the matrix products contract the feature axis, everything else is elementwise or a column
  slice.  So each named value of the body, read at `(p, j)`, is the row function of `Spec` applied to row `p` —
  with the weights read as the kernel holds them, input-first (`w (k, j)`), and the biases as 1-D arrays.
  The casts to the narrow float format are the identity here, and the accumulating products start from zero.
-/
import proofs.«127207_j85916525789512_1_alg».proof.Proof.Gen.KernelIdeal.Skeleton
import proofs.«127207_j85916525789512_1_alg».proof.Proof.Spec
import proofs.«127207_j85916525789512_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen

/-- The five matrix products of the body, each entry as the textbook sum. -/
theorem mm_64_128 {φ₁ φ₂ : FTy} (x : FVec Ideal S2048x64 φ₁) (w : FVec Ideal S64x128 φ₂) (p : Fin 2048) (q : Fin 128) :
    matmul dot_S2048x64_S64x128_S2048x128_1_0_0_1_n_n none x w (constant S2048x128 .f32 0x00000000#32) (ix2 p q)
      = ∑ k : Fin 64, x (ix2 p k) * w (ix2 k q) :=
  Cert.LibPlainMatmul.matmul_zero_apply none x w p q

theorem mm_128_128 {φ₁ φ₂ : FTy} (x : FVec Ideal S2048x128 φ₁) (w : FVec Ideal S128x128 φ₂) (p : Fin 2048) (q : Fin 128) :
    matmul dot_S2048x128_S128x128_S2048x128_1_0_0_1_n_n none x w (constant S2048x128 .f32 0x00000000#32) (ix2 p q)
      = ∑ k : Fin 128, x (ix2 p k) * w (ix2 k q) :=
  Cert.LibPlainMatmul.matmul_zero_apply none x w p q

theorem mm_128_512 {φ₁ φ₂ : FTy} (x : FVec Ideal S2048x128 φ₁) (w : FVec Ideal S128x512 φ₂) (p : Fin 2048) (q : Fin 512) :
    matmul dot_S2048x128_S128x512_S2048x512_1_0_0_1_n_n none x w (constant S2048x512 .f32 0x00000000#32) (ix2 p q)
      = ∑ k : Fin 128, x (ix2 p k) * w (ix2 k q) :=
  Cert.LibPlainMatmul.matmul_zero_apply none x w p q

theorem mm_128_8 {φ₁ φ₂ : FTy} (x : FVec Ideal S2048x128 φ₁) (w : FVec Ideal S128x8 φ₂) (p : Fin 2048) (q : Fin 8) :
    matmul dot_S2048x128_S128x8_S2048x8_1_0_0_1_n_n none x w (constant S2048x8 .f32 0x00000000#32) (ix2 p q)
      = ∑ k : Fin 128, x (ix2 p k) * w (ix2 k q) :=
  Cert.LibPlainMatmul.matmul_zero_apply none x w p q

theorem mm_128_1 {φ₁ φ₂ : FTy} (x : FVec Ideal S2048x128 φ₁) (w : FVec Ideal S128x1 φ₂) (p : Fin 2048) (q : Fin 1) :
    matmul dot_S2048x128_S128x1_S2048x1_1_0_0_1_n_n none x w (constant S2048x1 .f32 0x00000000#32) (ix2 p q)
      = ∑ k : Fin 128, x (ix2 p k) * w (ix2 k q) :=
  Cert.LibPlainMatmul.matmul_zero_apply none x w p q

/-- The vector forms of the three transcendental operations, read at an index. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The three gate groups the body cuts out of the 512 gate columns: columns `j`, `256 + j` and `384 + j`. -/
theorem slice_in (X : FVec Ideal S2048x512 .f32) (p : Fin 2048) (j : Fin 128) :
    extractStridedSlice S2048x128 ![0, 0] X slices_S2048x512_o0_0_S2048x128 (ix2 p j) = X (ix2 p ⟨j.val, by omega⟩) :=
  slice2_axis1_apply 0 X _ p j ⟨j.val, by omega⟩ (Nat.zero_add _).symm
theorem slice_cand (X : FVec Ideal S2048x512 .f32) (p : Fin 2048) (j : Fin 128) :
    extractStridedSlice S2048x128 ![0, 256] X slices_S2048x512_o0_256_S2048x128 (ix2 p j) = X (ix2 p ⟨256 + j.val, by omega⟩) :=
  slice2_axis1_apply 256 X _ p j ⟨256 + j.val, by omega⟩ rfl
theorem slice_out (X : FVec Ideal S2048x512 .f32) (p : Fin 2048) (j : Fin 128) :
    extractStridedSlice S2048x128 ![0, 384] X slices_S2048x512_o0_384_S2048x128 (ix2 p j) = X (ix2 p ⟨384 + j.val, by omega⟩) :=
  slice2_axis1_apply 384 X _ p j ⟨384 + j.val, by omega⟩ rfl

/-- The actor's gate pre-activations of row `p` of the block. -/
theorem pay5_apply (v0 : Vec Ideal S2048x64 .f32) (v3 : Vec Ideal S64x128 .f32) (v7 : Vec Ideal S128 .f32)
    (v14 : Vec Ideal S128x128 .f32) (v18 : Vec Ideal S128 .f32) (v25 : Vec Ideal S128x512 .f32)
    (v29 : Vec Ideal S512 .f32) (v33 : Vec Ideal S512 .f32) (p : Fin 2048) (g : Fin 512) :
    k0_pay5 (F := Ideal) v0 v3 v7 v14 v18 v25 v29 v33 (ix2 p g)
      = Cert.Spec.gates (fun k => v0 (ix2 p k)) (fun j k => v3 (ix2 k j)) (fun j => v7 (ix1 j))
          (fun j k => v14 (ix2 k j)) (fun j => v18 (ix1 j)) (fun g k => v25 (ix2 k g))
          (fun g => v29 (ix1 g)) (fun g => v33 (ix1 g)) g := by
  unfold k0_pay5 k0_pay4
  dsimp only
  simp only [addf_apply, maximumf_apply, truncf_apply, broadcast_apply, mm_64_128, mm_128_128, mm_128_512,
    shapeCast_self, broadcastTo_1b_ab_apply, shapeCast_a_1a_apply, Ideal.ofBits_def,
    Cert.Spec.gates, Cert.Spec.affine, Cert.Spec.layer]

/-- The actor's cell output of row `p`. -/
theorem actor_apply (v0 : Vec Ideal S2048x64 .f32) (v3 : Vec Ideal S64x128 .f32) (v7 : Vec Ideal S128 .f32)
    (v14 : Vec Ideal S128x128 .f32) (v18 : Vec Ideal S128 .f32) (v25 : Vec Ideal S128x512 .f32)
    (v29 : Vec Ideal S512 .f32) (v33 : Vec Ideal S512 .f32) (p : Fin 2048) (j : Fin 128) :
    k0_pay9 (F := Ideal) (k0_pay6 v0 v3 v7 v14 v18 v25 v29 v33) (k0_pay7 v0 v3 v7 v14 v18 v25 v29 v33)
        (k0_pay8 v0 v3 v7 v14 v18 v25 v29 v33) (ix2 p j)
      = Cert.Spec.branch (fun k => v0 (ix2 p k)) (fun j k => v3 (ix2 k j)) (fun j => v7 (ix1 j))
          (fun j k => v14 (ix2 k j)) (fun j => v18 (ix1 j)) (fun g k => v25 (ix2 k g))
          (fun g => v29 (ix1 g)) (fun g => v33 (ix1 g)) j := by
  unfold k0_pay9 k0_pay6 k0_pay7 k0_pay8
  dsimp only
  simp only [mulf_apply, truncf_apply, logistic_apply, tanh_apply, slice_in, slice_cand, slice_out, pay5_apply,
    Cert.Spec.branch, Cert.Spec.cell]

/-- The critic's gate pre-activations of row `p`, from the block already cast to the narrow format (the cast is the
    identity over the extended reals). -/
theorem pay10_apply (v2 : FVec Ideal S2048x64 .bf16) (v47 : Vec Ideal S64x128 .f32) (v51 : Vec Ideal S128 .f32)
    (v58 : Vec Ideal S128x128 .f32) (v62 : Vec Ideal S128 .f32) (v69 : Vec Ideal S128x512 .f32)
    (v73 : Vec Ideal S512 .f32) (v77 : Vec Ideal S512 .f32) (p : Fin 2048) (g : Fin 512) :
    k0_pay10 (F := Ideal) v2 v47 v51 v58 v62 v69 v73 v77 (ix2 p g)
      = Cert.Spec.gates (fun k => v2 (ix2 p k)) (fun j k => v47 (ix2 k j)) (fun j => v51 (ix1 j))
          (fun j k => v58 (ix2 k j)) (fun j => v62 (ix1 j)) (fun g k => v69 (ix2 k g))
          (fun g => v73 (ix1 g)) (fun g => v77 (ix1 g)) g := by
  unfold k0_pay10
  simp only [addf_apply, maximumf_apply, truncf_apply, broadcast_apply, mm_64_128, mm_128_128, mm_128_512,
    shapeCast_self, broadcastTo_1b_ab_apply, shapeCast_a_1a_apply, Ideal.ofBits_def,
    Cert.Spec.gates, Cert.Spec.affine, Cert.Spec.layer]

/-- The block cast to the narrow format reads as the block. -/
theorem pay4_apply (v0 : Vec Ideal S2048x64 .f32) (i : S2048x64.Idx) : k0_pay4 (F := Ideal) v0 i = v0 i := by
  unfold k0_pay4
  simp only [truncf_apply, shapeCast_self]

/-- A head on a block of cell outputs: the mean head (8 outputs). -/
theorem pay1_apply (v46 : FVec Ideal S2048x128 .bf16) (v91 : Vec Ideal S128x8 .f32) (v95 : Vec Ideal S8 .f32)
    (p : Fin 2048) (a : Fin 8) :
    k0_pay1 (F := Ideal) v46 v91 v95 (ix2 p a)
      = Cert.Spec.affine (fun k => v46 (ix2 p k)) (fun a k => v91 (ix2 k a)) (fun a => v95 (ix1 a)) a := by
  unfold k0_pay1
  simp only [addf_apply, truncf_apply, mm_128_8, shapeCast_self, broadcastTo_1b_ab_apply, shapeCast_a_1a_apply,
    Cert.Spec.affine]

/-- The spread head: the exponential of an affine map (8 outputs). -/
theorem pay2_apply (v46 : FVec Ideal S2048x128 .bf16) (v99 : Vec Ideal S128x8 .f32) (v103 : Vec Ideal S8 .f32)
    (p : Fin 2048) (a : Fin 8) :
    k0_pay2 (F := Ideal) v46 v99 v103 (ix2 p a)
      = Ideal.exp (Cert.Spec.affine (fun k => v46 (ix2 p k)) (fun a k => v99 (ix2 k a)) (fun a => v103 (ix1 a)) a) := by
  unfold k0_pay2
  simp only [addf_apply, truncf_apply, exp_apply, mm_128_8, shapeCast_self, broadcastTo_1b_ab_apply, shapeCast_a_1a_apply,
    Cert.Spec.affine]

/-- The value head on the critic's output gate and cell state (1 output). -/
theorem pay3_apply (v83 v86 : FVec Ideal S2048x128 .f32) (v108 : Vec Ideal S128x1 .f32) (v112 : Vec Ideal S1 .f32)
    (p : Fin 2048) (u : Fin 1) :
    k0_pay3 (F := Ideal) v83 v86 v108 v112 (ix2 p u)
      = Cert.Spec.affine (fun k => Ideal.logistic (v83 (ix2 p k)) * Ideal.tanh (v86 (ix2 p k)))
          (fun u k => v108 (ix2 k u)) (fun u => v112 (ix1 u)) u := by
  unfold k0_pay3
  simp only [addf_apply, mulf_apply, truncf_apply, logistic_apply, tanh_apply, mm_128_1, shapeCast_self,
    broadcastTo_1b_ab_apply, shapeCast_a_1a_apply, Cert.Spec.affine]

/-- The critic's cell output of row `p`: the value head's two operands, the output gate group and the cell state, combined. -/
theorem critic_apply (v0 : Vec Ideal S2048x64 .f32) (v47 : Vec Ideal S64x128 .f32) (v51 : Vec Ideal S128 .f32)
    (v58 : Vec Ideal S128x128 .f32) (v62 : Vec Ideal S128 .f32) (v69 : Vec Ideal S128x512 .f32)
    (v73 : Vec Ideal S512 .f32) (v77 : Vec Ideal S512 .f32) (p : Fin 2048) (j : Fin 128) :
    Ideal.logistic (k0_pay11 (F := Ideal) (k0_pay4 v0) v47 v51 v58 v62 v69 v73 v77 (ix2 p j))
        * Ideal.tanh (k0_pay12 (F := Ideal) (k0_pay4 v0) v47 v51 v58 v62 v69 v73 v77 (ix2 p j))
      = Cert.Spec.branch (fun k => v0 (ix2 p k)) (fun j k => v47 (ix2 k j)) (fun j => v51 (ix1 j))
          (fun j k => v58 (ix2 k j)) (fun j => v62 (ix1 j)) (fun g k => v69 (ix2 k g))
          (fun g => v73 (ix1 g)) (fun g => v77 (ix1 g)) j := by
  unfold k0_pay11 k0_pay12
  simp only [mulf_apply, logistic_apply, tanh_apply, slice_in, slice_cand, slice_out, pay10_apply, pay4_apply,
    Cert.Spec.branch, Cert.Spec.cell]

end Cert.KernelIdeal.Rows

end
-- ==== Proof.KernelBlocks.lean ====
/-
  From blocks to arrays.

  The kernel runs on a grid of 128 points; point `t` stages rows `2048 t … 2048 t + 2047` of the flattened state,
  every weight and bias array whole, and writes back rows `2048 t …` of each of the three results.  What the body
  leaves in a result's buffer at row `p` is the head of `Spec` on the cell output of that row (the row lemmas),
  so what point `t` writes back is block `t` of ONE function of the arrays the windows hold, read at flattened
  row `r = 2048 t + p`; the 128 blocks cover each result array, which therefore ends as that function.
-/
import proofs.«127207_j85916525789512_1_alg».proof.Proof.Gen.KernelIdeal.Frame
import proofs.«127207_j85916525789512_1_alg».proof.Proof.KernelRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Rows
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- What the body leaves in the mean window's buffer, at row `p`, column `a`. -/
theorem out21_apply (x0 : Vec Ideal S2048x64 .f32) (x1 : Vec Ideal S64x128 .f32) (x2 : Vec Ideal S128 .f32) (x3 : Vec Ideal S128x128 .f32) (x4 : Vec Ideal S128 .f32) (x5 : Vec Ideal S64x128 .f32) (x6 : Vec Ideal S128 .f32) (x7 : Vec Ideal S128x128 .f32) (x8 : Vec Ideal S128 .f32) (x9 : Vec Ideal S128x512 .f32) (x10 : Vec Ideal S512 .f32) (x11 : Vec Ideal S512 .f32) (x12 : Vec Ideal S128x512 .f32) (x13 : Vec Ideal S512 .f32) (x14 : Vec Ideal S512 .f32) (x15 : Vec Ideal S128x8 .f32) (x16 : Vec Ideal S8 .f32) (x17 : Vec Ideal S128x8 .f32) (x18 : Vec Ideal S8 .f32) (x19 : Vec Ideal S128x1 .f32) (x20 : Vec Ideal S1 .f32) (p : Fin 2048) (a : Fin 8) :
    out0_21 (F := Ideal) x0 x1 x2 x3 x4 x5 x6 x7 x8 x9 x10 x11 x12 x13 x14 x15 x16 x17 x18 x19 x20 (ix2 p a)
      = Cert.Spec.affine (Cert.Spec.branch (fun k => x0 (ix2 p k)) (fun j k => x1 (ix2 k j)) (fun j => x2 (ix1 j))
            (fun j k => x3 (ix2 k j)) (fun j => x4 (ix1 j)) (fun g k => x9 (ix2 k g)) (fun g => x10 (ix1 g)) (fun g => x11 (ix1 g))) (fun a k => x15 (ix2 k a)) (fun a => x16 (ix1 a)) a := by
  unfold out0_21
  rw [View.canon_unit_zero hz2]
  simp only [View.ld_unit_zero (S := S2048x64) hz2, View.ld_unit_zero (S := S64x128) hz2, View.ld_unit_zero (S := S128x128) hz2, View.ld_unit_zero (S := S128x512) hz2, View.ld_unit_zero (S := S128x8) hz2, View.ld_unit_zero (S := S128x1) hz2, View.ld_unit_zero (S := S128) hz1, View.ld_unit_zero (S := S512) hz1, View.ld_unit_zero (S := S8) hz1, View.ld_unit_zero (S := S1) hz1]
  rw [pay1_apply]
  simp only [actor_apply]

/-- The spread window's buffer. -/
theorem out22_apply (x0 : Vec Ideal S2048x64 .f32) (x1 : Vec Ideal S64x128 .f32) (x2 : Vec Ideal S128 .f32) (x3 : Vec Ideal S128x128 .f32) (x4 : Vec Ideal S128 .f32) (x5 : Vec Ideal S64x128 .f32) (x6 : Vec Ideal S128 .f32) (x7 : Vec Ideal S128x128 .f32) (x8 : Vec Ideal S128 .f32) (x9 : Vec Ideal S128x512 .f32) (x10 : Vec Ideal S512 .f32) (x11 : Vec Ideal S512 .f32) (x12 : Vec Ideal S128x512 .f32) (x13 : Vec Ideal S512 .f32) (x14 : Vec Ideal S512 .f32) (x15 : Vec Ideal S128x8 .f32) (x16 : Vec Ideal S8 .f32) (x17 : Vec Ideal S128x8 .f32) (x18 : Vec Ideal S8 .f32) (x19 : Vec Ideal S128x1 .f32) (x20 : Vec Ideal S1 .f32) (p : Fin 2048) (a : Fin 8) :
    out0_22 (F := Ideal) x0 x1 x2 x3 x4 x5 x6 x7 x8 x9 x10 x11 x12 x13 x14 x15 x16 x17 x18 x19 x20 (ix2 p a)
      = Ideal.exp (Cert.Spec.affine (Cert.Spec.branch (fun k => x0 (ix2 p k)) (fun j k => x1 (ix2 k j)) (fun j => x2 (ix1 j))
            (fun j k => x3 (ix2 k j)) (fun j => x4 (ix1 j)) (fun g k => x9 (ix2 k g)) (fun g => x10 (ix1 g)) (fun g => x11 (ix1 g))) (fun a k => x17 (ix2 k a)) (fun a => x18 (ix1 a)) a) := by
  unfold out0_22
  rw [View.canon_unit_zero hz2]
  simp only [View.ld_unit_zero (S := S2048x64) hz2, View.ld_unit_zero (S := S64x128) hz2, View.ld_unit_zero (S := S128x128) hz2, View.ld_unit_zero (S := S128x512) hz2, View.ld_unit_zero (S := S128x8) hz2, View.ld_unit_zero (S := S128x1) hz2, View.ld_unit_zero (S := S128) hz1, View.ld_unit_zero (S := S512) hz1, View.ld_unit_zero (S := S8) hz1, View.ld_unit_zero (S := S1) hz1]
  rw [pay2_apply]
  simp only [actor_apply]

/-- The value window's buffer. -/
theorem out23_apply (x0 : Vec Ideal S2048x64 .f32) (x1 : Vec Ideal S64x128 .f32) (x2 : Vec Ideal S128 .f32) (x3 : Vec Ideal S128x128 .f32) (x4 : Vec Ideal S128 .f32) (x5 : Vec Ideal S64x128 .f32) (x6 : Vec Ideal S128 .f32) (x7 : Vec Ideal S128x128 .f32) (x8 : Vec Ideal S128 .f32) (x9 : Vec Ideal S128x512 .f32) (x10 : Vec Ideal S512 .f32) (x11 : Vec Ideal S512 .f32) (x12 : Vec Ideal S128x512 .f32) (x13 : Vec Ideal S512 .f32) (x14 : Vec Ideal S512 .f32) (x15 : Vec Ideal S128x8 .f32) (x16 : Vec Ideal S8 .f32) (x17 : Vec Ideal S128x8 .f32) (x18 : Vec Ideal S8 .f32) (x19 : Vec Ideal S128x1 .f32) (x20 : Vec Ideal S1 .f32) (p : Fin 2048) (u : Fin 1) :
    out0_23 (F := Ideal) x0 x1 x2 x3 x4 x5 x6 x7 x8 x9 x10 x11 x12 x13 x14 x15 x16 x17 x18 x19 x20 (ix2 p u)
      = Cert.Spec.affine (Cert.Spec.branch (fun k => x0 (ix2 p k)) (fun j k => x5 (ix2 k j)) (fun j => x6 (ix1 j))
            (fun j k => x7 (ix2 k j)) (fun j => x8 (ix1 j)) (fun g k => x12 (ix2 k g)) (fun g => x13 (ix1 g)) (fun g => x14 (ix1 g))) (fun u k => x19 (ix2 k u)) (fun u => x20 (ix1 u)) u := by
  unfold out0_23
  rw [View.canon_unit_zero hz2]
  simp only [View.ld_unit_zero (S := S2048x64) hz2, View.ld_unit_zero (S := S64x128) hz2, View.ld_unit_zero (S := S128x128) hz2, View.ld_unit_zero (S := S128x512) hz2, View.ld_unit_zero (S := S128x8) hz2, View.ld_unit_zero (S := S128x1) hz2, View.ld_unit_zero (S := S128) hz1, View.ld_unit_zero (S := S512) hz1, View.ld_unit_zero (S := S8) hz1, View.ld_unit_zero (S := S1) hz1]
  rw [pay3_apply]
  simp only [critic_apply]

variable (m : (ℓ : Loc nD τ sig) → Buf (Elt Ideal) ℓ)

/-- Row `p` of grid point `t`'s block is row `2048 t + p` of the flattened arrays. -/
abbrev rowOf (t : Fin cfg0.N) (p : Fin 2048) : Fin 262144 := ⟨t.val * 2048 + p.val, by have := t.isLt; have := p.isLt; have h : cfg0.N = 128 := N_0; omega⟩

/-- The printed index maps over the grid: the state and the three results move one block of rows per point; every
    weight and bias window stays at block zero. -/
theorem idx_rows : ∀ t : Fin cfg0.N, win0_0.index t (0 : Fin 2) = t.val ∧ win0_0.index t (1 : Fin 2) = 0
    ∧ win0_21.index t (0 : Fin 2) = t.val ∧ win0_21.index t (1 : Fin 2) = 0
    ∧ win0_22.index t (0 : Fin 2) = t.val ∧ win0_22.index t (1 : Fin 2) = 0
    ∧ win0_23.index t (0 : Fin 2) = t.val ∧ win0_23.index t (1 : Fin 2) = 0 :=
  (by decide +kernel : ∀ t : Fin grid0.N, _)

theorem emb0 (t : Fin cfg0.N) (p : Fin 2048) (k : Fin 64) : ((cfg0.win 0).blk t).view.emb (ix2 p k) = ix2 (rowOf t p) k := by
  obtain ⟨e0, e1, -⟩ := idx_rows t
  funext a; apply Fin.ext
  match a with
  | ⟨0, _⟩ => show win0_0.index t (0 : Fin 2) * 2048 + 1 * p.val = t.val * 2048 + p.val; omega
  | ⟨1, _⟩ => show win0_0.index t (1 : Fin 2) * 64 + 1 * k.val = k.val; omega

theorem blk0_apply (c : Dev nD) (t : Fin cfg0.N) (p : Fin 2048) (k : Fin 64) :
    iblk m c 0 t (ix2 p k) = V m c main_v0 (ix2 (rowOf t p) k) := by
  show V m c main_v0 (((cfg0.win 0).blk t).view.emb (ix2 p k)) = _
  rw [emb0]

/-- Every weight and bias window stays at block zero on every axis, at every grid point. -/
theorem idx_fixed : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 1) = 0
    ∧ win0_12.index t (0 : Fin 2) = 0 ∧ win0_12.index t (1 : Fin 2) = 0
    ∧ win0_13.index t (0 : Fin 1) = 0
    ∧ win0_14.index t (0 : Fin 1) = 0
    ∧ win0_15.index t (0 : Fin 2) = 0 ∧ win0_15.index t (1 : Fin 2) = 0
    ∧ win0_16.index t (0 : Fin 1) = 0
    ∧ win0_17.index t (0 : Fin 2) = 0 ∧ win0_17.index t (1 : Fin 2) = 0
    ∧ win0_18.index t (0 : Fin 1) = 0
    ∧ win0_19.index t (0 : Fin 2) = 0 ∧ win0_19.index t (1 : Fin 2) = 0
    ∧ win0_20.index t (0 : Fin 1) = 0 :=
  (by decide +kernel : ∀ t : Fin grid0.N, _)

/-! Each weight or bias window's block is its whole array, at every point. -/

theorem blk1_apply (c : Dev nD) (t : Fin cfg0.N) (k : Fin 64) (j : Fin 128) :
    iblk m c 1 t (ix2 k j) = V m c main_v1 (ix2 k j) := by
  have e := idx_fixed t
  show V m c main_v1 (((cfg0.win 1).blk t).view.emb (ix2 k j)) = _
  refine congrArg _ (funext fun a => Fin.ext ?_)
  match a with
  | ⟨0, _⟩ => show win0_1.index t (0 : Fin 2) * 64 + 1 * k.val = k.val; omega
  | ⟨1, _⟩ => show win0_1.index t (1 : Fin 2) * 128 + 1 * j.val = j.val; omega

theorem blk2_apply (c : Dev nD) (t : Fin cfg0.N) (j : Fin 128) :
    iblk m c 2 t (ix1 j) = V m c main_arg2 (ix1 j) := by
  have e := idx_fixed t
  show V m c main_arg2 (((cfg0.win 2).blk t).view.emb (ix1 j)) = _
  refine congrArg _ (funext fun a => Fin.ext ?_)
  match a with
  | ⟨0, _⟩ => show win0_2.index t (0 : Fin 1) * 128 + 1 * j.val = j.val; omega

theorem blk3_apply (c : Dev nD) (t : Fin cfg0.N) (k : Fin 128) (j : Fin 128) :
    iblk m c 3 t (ix2 k j) = V m c main_v2 (ix2 k j) := by
  have e := idx_fixed t
  show V m c main_v2 (((cfg0.win 3).blk t).view.emb (ix2 k j)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem blk4_apply (c : Dev nD) (t : Fin cfg0.N) (j : Fin 128) :
    iblk m c 4 t (ix1 j) = V m c main_arg4 (ix1 j) := by
  have e := idx_fixed t
  show V m c main_arg4 (((cfg0.win 4).blk t).view.emb (ix1 j)) = _
  refine congrArg _ (funext fun a => Fin.ext ?_)
  match a with
  | ⟨0, _⟩ => show win0_4.index t (0 : Fin 1) * 128 + 1 * j.val = j.val; omega

theorem blk5_apply (c : Dev nD) (t : Fin cfg0.N) (k : Fin 64) (j : Fin 128) :
    iblk m c 5 t (ix2 k j) = V m c main_v3 (ix2 k j) := by
  have e := idx_fixed t
  show V m c main_v3 (((cfg0.win 5).blk t).view.emb (ix2 k j)) = _
  refine congrArg _ (funext fun a => Fin.ext ?_)
  match a with
  | ⟨0, _⟩ => show win0_5.index t (0 : Fin 2) * 64 + 1 * k.val = k.val; omega
  | ⟨1, _⟩ => show win0_5.index t (1 : Fin 2) * 128 + 1 * j.val = j.val; omega

theorem blk6_apply (c : Dev nD) (t : Fin cfg0.N) (j : Fin 128) :
    iblk m c 6 t (ix1 j) = V m c main_arg6 (ix1 j) := by
  have e := idx_fixed t
  show V m c main_arg6 (((cfg0.win 6).blk t).view.emb (ix1 j)) = _
  refine congrArg _ (funext fun a => Fin.ext ?_)
  match a with
  | ⟨0, _⟩ => show win0_6.index t (0 : Fin 1) * 128 + 1 * j.val = j.val; omega

theorem blk7_apply (c : Dev nD) (t : Fin cfg0.N) (k : Fin 128) (j : Fin 128) :
    iblk m c 7 t (ix2 k j) = V m c main_v4 (ix2 k j) := by
  have e := idx_fixed t
  show V m c main_v4 (((cfg0.win 7).blk t).view.emb (ix2 k j)) = _
  refine congrArg _ (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

theorem blk8_apply (c : Dev nD) (t : Fin cfg0.N) (j : Fin 128) :
    iblk m c 8 t (ix1 j) = V m c main_arg8 (ix1 j) := by
  have e := idx_fixed t
  show V m c main_arg8 (((cfg0.win 8).blk t).view.emb (ix1 j)) = _
  refine congrArg _ (funext fun a => Fin.ext ?_)
  match a with
  | ⟨0, _⟩ => show win0_8.index t (0 : Fin 1) * 128 + 1 * j.val = j.val; omega

theorem blk9_apply (c : Dev nD) (t : Fin cfg0.N) (k : Fin 128) (j : Fin 512) :
    iblk m c 9 t (ix2 k j) = V m c main_v5 (ix2 k j) := by
  have e := idx_fixed t
  show V m c main_v5 (((cfg0.win 9).blk t).view.emb (ix2 k j)) = _
  refine congrArg _ (funext fun a => Fin.ext ?_)
  match a with
  | ⟨0, _⟩ => show win0_9.index t (0 : Fin 2) * 128 + 1 * k.val = k.val; omega
  | ⟨1, _⟩ => show win0_9.index t (1 : Fin 2) * 512 + 1 * j.val = j.val; omega

theorem blk10_apply (c : Dev nD) (t : Fin cfg0.N) (j : Fin 512) :
    iblk m c 10 t (ix1 j) = V m c main_arg11 (ix1 j) := by
  have e := idx_fixed t
  show V m c main_arg11 (((cfg0.win 10).blk t).view.emb (ix1 j)) = _
  refine congrArg _ (funext fun a => Fin.ext ?_)
  match a with
  | ⟨0, _⟩ => show win0_10.index t (0 : Fin 1) * 512 + 1 * j.val = j.val; omega

theorem blk11_apply (c : Dev nD) (t : Fin cfg0.N) (j : Fin 512) :
    iblk m c 11 t (ix1 j) = V m c main_arg12 (ix1 j) := by
  have e := idx_fixed t
  show V m c main_arg12 (((cfg0.win 11).blk t).view.emb (ix1 j)) = _
  refine congrArg _ (funext fun a => Fin.ext ?_)
  match a with
  | ⟨0, _⟩ => show win0_11.index t (0 : Fin 1) * 512 + 1 * j.val = j.val; omega

theorem blk12_apply (c : Dev nD) (t : Fin cfg0.N) (k : Fin 128) (j : Fin 512) :
    iblk m c 12 t (ix2 k j) = V m c main_v6 (ix2 k j) := by
  have e := idx_fixed t
  show V m c main_v6 (((cfg0.win 12).blk t).view.emb (ix2 k j)) = _
  refine congrArg _ (funext fun a => Fin.ext ?_)
  match a with
  | ⟨0, _⟩ => show win0_12.index t (0 : Fin 2) * 128 + 1 * k.val = k.val; omega
  | ⟨1, _⟩ => show win0_12.index t (1 : Fin 2) * 512 + 1 * j.val = j.val; omega

theorem blk13_apply (c : Dev nD) (t : Fin cfg0.N) (j : Fin 512) :
    iblk m c 13 t (ix1 j) = V m c main_arg15 (ix1 j) := by
  have e := idx_fixed t
  show V m c main_arg15 (((cfg0.win 13).blk t).view.emb (ix1 j)) = _
  refine congrArg _ (funext fun a => Fin.ext ?_)
  match a with
  | ⟨0, _⟩ => show win0_13.index t (0 : Fin 1) * 512 + 1 * j.val = j.val; omega

theorem blk14_apply (c : Dev nD) (t : Fin cfg0.N) (j : Fin 512) :
    iblk m c 14 t (ix1 j) = V m c main_arg16 (ix1 j) := by
  have e := idx_fixed t
  show V m c main_arg16 (((cfg0.win 14).blk t).view.emb (ix1 j)) = _
  refine congrArg _ (funext fun a => Fin.ext ?_)
  match a with
  | ⟨0, _⟩ => show win0_14.index t (0 : Fin 1) * 512 + 1 * j.val = j.val; omega

theorem blk15_apply (c : Dev nD) (t : Fin cfg0.N) (k : Fin 128) (j : Fin 8) :
    iblk m c 15 t (ix2 k j) = V m c main_v7 (ix2 k j) := by
  have e := idx_fixed t
  show V m c main_v7 (((cfg0.win 15).blk t).view.emb (ix2 k j)) = _
  refine congrArg _ (funext fun a => Fin.ext ?_)
  match a with
  | ⟨0, _⟩ => show win0_15.index t (0 : Fin 2) * 128 + 1 * k.val = k.val; omega
  | ⟨1, _⟩ => show win0_15.index t (1 : Fin 2) * 8 + 1 * j.val = j.val; omega

theorem blk16_apply (c : Dev nD) (t : Fin cfg0.N) (j : Fin 8) :
    iblk m c 16 t (ix1 j) = V m c main_arg18 (ix1 j) := by
  have e := idx_fixed t
  show V m c main_arg18 (((cfg0.win 16).blk t).view.emb (ix1 j)) = _
  refine congrArg _ (funext fun a => Fin.ext ?_)
  match a with
  | ⟨0, _⟩ => show win0_16.index t (0 : Fin 1) * 8 + 1 * j.val = j.val; omega

theorem blk17_apply (c : Dev nD) (t : Fin cfg0.N) (k : Fin 128) (j : Fin 8) :
    iblk m c 17 t (ix2 k j) = V m c main_v8 (ix2 k j) := by
  have e := idx_fixed t
  show V m c main_v8 (((cfg0.win 17).blk t).view.emb (ix2 k j)) = _
  refine congrArg _ (funext fun a => Fin.ext ?_)
  match a with
  | ⟨0, _⟩ => show win0_17.index t (0 : Fin 2) * 128 + 1 * k.val = k.val; omega
  | ⟨1, _⟩ => show win0_17.index t (1 : Fin 2) * 8 + 1 * j.val = j.val; omega

theorem blk18_apply (c : Dev nD) (t : Fin cfg0.N) (j : Fin 8) :
    iblk m c 18 t (ix1 j) = V m c main_arg20 (ix1 j) := by
  have e := idx_fixed t
  show V m c main_arg20 (((cfg0.win 18).blk t).view.emb (ix1 j)) = _
  refine congrArg _ (funext fun a => Fin.ext ?_)
  match a with
  | ⟨0, _⟩ => show win0_18.index t (0 : Fin 1) * 8 + 1 * j.val = j.val; omega

theorem blk19_apply (c : Dev nD) (t : Fin cfg0.N) (k : Fin 128) (j : Fin 1) :
    iblk m c 19 t (ix2 k j) = V m c main_v9 (ix2 k j) := by
  have e := idx_fixed t
  show V m c main_v9 (((cfg0.win 19).blk t).view.emb (ix2 k j)) = _
  refine congrArg _ (funext fun a => Fin.ext ?_)
  match a with
  | ⟨0, _⟩ => show win0_19.index t (0 : Fin 2) * 128 + 1 * k.val = k.val; omega
  | ⟨1, _⟩ => show win0_19.index t (1 : Fin 2) * 1 + 1 * j.val = j.val; omega

theorem blk20_apply (c : Dev nD) (t : Fin cfg0.N) (j : Fin 1) :
    iblk m c 20 t (ix1 j) = V m c main_arg22 (ix1 j) := by
  have e := idx_fixed t
  show V m c main_arg22 (((cfg0.win 20).blk t).view.emb (ix1 j)) = _
  refine congrArg _ (funext fun a => Fin.ext ?_)
  match a with
  | ⟨0, _⟩ => show win0_20.index t (0 : Fin 1) * 1 + 1 * j.val = j.val; omega

/-- The mean over the flattened rows, from the arrays as the kernel's windows hold them (weights input-first). -/
def meanFlat (A0 : S262144x64.Idx → EReal) (A1 : S64x128.Idx → EReal) (A2 : S128.Idx → EReal) (A3 : S128x128.Idx → EReal) (A4 : S128.Idx → EReal) (A9 : S128x512.Idx → EReal) (A10 : S512.Idx → EReal) (A11 : S512.Idx → EReal) (A15 : S128x8.Idx → EReal) (A16 : S8.Idx → EReal) (r : Fin 262144) (a : Fin 8) : EReal :=
  Cert.Spec.affine (Cert.Spec.branch (fun k => A0 (ix2 r k)) (fun j k => A1 (ix2 k j)) (fun j => A2 (ix1 j))
      (fun j k => A3 (ix2 k j)) (fun j => A4 (ix1 j)) (fun g k => A9 (ix2 k g)) (fun g => A10 (ix1 g)) (fun g => A11 (ix1 g))) (fun a k => A15 (ix2 k a)) (fun a => A16 (ix1 a)) a

/-- The spread over the flattened rows. -/
def stdFlat (A0 : S262144x64.Idx → EReal) (A1 : S64x128.Idx → EReal) (A2 : S128.Idx → EReal) (A3 : S128x128.Idx → EReal) (A4 : S128.Idx → EReal) (A9 : S128x512.Idx → EReal) (A10 : S512.Idx → EReal) (A11 : S512.Idx → EReal) (A17 : S128x8.Idx → EReal) (A18 : S8.Idx → EReal) (r : Fin 262144) (a : Fin 8) : EReal :=
  Ideal.exp (Cert.Spec.affine (Cert.Spec.branch (fun k => A0 (ix2 r k)) (fun j k => A1 (ix2 k j)) (fun j => A2 (ix1 j))
      (fun j k => A3 (ix2 k j)) (fun j => A4 (ix1 j)) (fun g k => A9 (ix2 k g)) (fun g => A10 (ix1 g)) (fun g => A11 (ix1 g))) (fun a k => A17 (ix2 k a)) (fun a => A18 (ix1 a)) a)

/-- The value over the flattened rows. -/
def valueFlat (A0 : S262144x64.Idx → EReal) (A5 : S64x128.Idx → EReal) (A6 : S128.Idx → EReal) (A7 : S128x128.Idx → EReal) (A8 : S128.Idx → EReal) (A12 : S128x512.Idx → EReal) (A13 : S512.Idx → EReal) (A14 : S512.Idx → EReal) (A19 : S128x1.Idx → EReal) (A20 : S1.Idx → EReal) (r : Fin 262144) (u : Fin 1) : EReal :=
  Cert.Spec.affine (Cert.Spec.branch (fun k => A0 (ix2 r k)) (fun j k => A5 (ix2 k j)) (fun j => A6 (ix1 j))
      (fun j k => A7 (ix2 k j)) (fun j => A8 (ix1 j)) (fun g k => A12 (ix2 k g)) (fun g => A13 (ix1 g)) (fun g => A14 (ix1 g))) (fun u k => A19 (ix2 k u)) (fun u => A20 (ix1 u)) u

theorem emb21 (t : Fin cfg0.N) (p : Fin 2048) (a : Fin 8) : ((cfg0.win 21).blk t).view.emb (ix2 p a) = ix2 (rowOf t p) a := by
  have e := idx_rows t
  funext d; apply Fin.ext
  match d with
  | ⟨0, _⟩ => show win0_21.index t (0 : Fin 2) * 2048 + 1 * p.val = t.val * 2048 + p.val; omega
  | ⟨1, _⟩ => show win0_21.index t (1 : Fin 2) * 8 + 1 * a.val = a.val; omega

/-- What grid point `t` writes back to this result's array is block `t` of the whole-array function. -/
theorem flushed21_eq (c : Dev nD) (t : Fin cfg0.N) :
    (dats m 0 c).flushed 21 t = ((cfg0.win 21).blk t).view.read (Elt Ideal)
      (fun i => meanFlat (V m c main_v0) (V m c main_v1) (V m c main_arg2) (V m c main_v2) (V m c main_arg4) (V m c main_v5) (V m c main_arg11) (V m c main_arg12) (V m c main_v7) (V m c main_arg18) (i 0) (i 1)) := by
  show (cfg0.win 21).cut (grid0.coords t) ((dats m 0 c).after 21 t) = _
  rw [after0_21]
  funext y
  obtain ⟨p, a, rfl⟩ : ∃ (p : Fin 2048) (a : Fin 8), y = ix2 p a := ⟨y 0, y 1, eq_ix2 y⟩
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p a)
    = (fun i : S262144x8.Idx => meanFlat (V m c main_v0) (V m c main_v1) (V m c main_arg2) (V m c main_v2) (V m c main_arg4) (V m c main_v5) (V m c main_arg11) (V m c main_arg12) (V m c main_v7) (V m c main_arg18) (i 0) (i 1)) (((cfg0.win 21).blk t).view.emb (ix2 p a))
  rw [emb21]
  refine (out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p a).trans ?_
  simp only [blk0_apply, blk1_apply, blk2_apply, blk3_apply, blk4_apply, blk5_apply, blk6_apply, blk7_apply, blk8_apply, blk9_apply, blk10_apply, blk11_apply, blk12_apply, blk13_apply, blk14_apply, blk15_apply, blk16_apply, blk17_apply, blk18_apply, blk19_apply, blk20_apply]
  rfl

/-- An index of the array lies in point `t`'s block iff each coordinate is in the block's range on its axis. -/
theorem mem_blk21 (t : Fin cfg0.N) (i : S262144x8.Idx) :
    i ∈ ((cfg0.win 21).blk t).view.set ↔ ∀ a : Fin 2, win0_21.index t a * S2048x8.size a ≤ (i a).val
      ∧ (i a).val < win0_21.index t a * S2048x8.size a + S2048x8.size a := by
  show i ∈ ((View.whole main_v10_0).slice (win0_21.rect t)).set ↔ _
  rw [View.set_slice_whole, Rect.mem_set_unit]
  exact Iff.rfl

/-- Row `r` of the array is written by grid point `r / 2048`: the blocks cover the array. -/
theorem cover21 (i : S262144x8.Idx) :
    ∃ t : Fin cfg0.N, (cfg0.win 21).flush t = true ∧ i ∈ ((cfg0.win 21).blk t).view.set := by
  have hi0 : (i 0).val < 262144 := (i 0).isLt
  have hi1 : (i 1).val < 8 := (i 1).isLt
  have hN : cfg0.N = 128 := N_0
  obtain ⟨t, ht⟩ : ∃ t : Fin cfg0.N, t.val = (i 0).val / 2048 := ⟨⟨(i 0).val / 2048, by omega⟩, rfl⟩
  refine ⟨t, flush0_21 t, ?_⟩
  rw [mem_blk21]
  have e := idx_rows t
  intro a
  match a with
  | ⟨0, _⟩ => show win0_21.index t (0 : Fin 2) * 2048 ≤ (i 0).val ∧ (i 0).val < win0_21.index t (0 : Fin 2) * 2048 + 2048; omega
  | ⟨1, _⟩ => show win0_21.index t (1 : Fin 2) * 8 ≤ (i 1).val ∧ (i 1).val < win0_21.index t (1 : Fin 2) * 8 + 8; omega

/-- The array after the run: the whole-array function of the arrays the windows hold. -/
theorem final21 (c : Dev nD) : (dats m 0 c).arrAt 21 cfg0.N = fun i => meanFlat (V m c main_v0) (V m c main_v1) (V m c main_arg2) (V m c main_v2) (V m c main_arg4) (V m c main_v5) (V m c main_arg11) (V m c main_arg12) (V m c main_v7) (V m c main_arg18) (i 0) (i 1) :=
  (dats m 0 c).arrAt_eq_of_cover 21 _ (fun t _ => flushed21_eq m c t) cover21

theorem emb22 (t : Fin cfg0.N) (p : Fin 2048) (a : Fin 8) : ((cfg0.win 22).blk t).view.emb (ix2 p a) = ix2 (rowOf t p) a := by
  have e := idx_rows t
  funext d; apply Fin.ext
  match d with
  | ⟨0, _⟩ => show win0_22.index t (0 : Fin 2) * 2048 + 1 * p.val = t.val * 2048 + p.val; omega
  | ⟨1, _⟩ => show win0_22.index t (1 : Fin 2) * 8 + 1 * a.val = a.val; omega

/-- What grid point `t` writes back to this result's array is block `t` of the whole-array function. -/
theorem flushed22_eq (c : Dev nD) (t : Fin cfg0.N) :
    (dats m 0 c).flushed 22 t = ((cfg0.win 22).blk t).view.read (Elt Ideal)
      (fun i => stdFlat (V m c main_v0) (V m c main_v1) (V m c main_arg2) (V m c main_v2) (V m c main_arg4) (V m c main_v5) (V m c main_arg11) (V m c main_arg12) (V m c main_v8) (V m c main_arg20) (i 0) (i 1)) := by
  show (cfg0.win 22).cut (grid0.coords t) ((dats m 0 c).after 22 t) = _
  rw [after0_22]
  funext y
  obtain ⟨p, a, rfl⟩ : ∃ (p : Fin 2048) (a : Fin 8), y = ix2 p a := ⟨y 0, y 1, eq_ix2 y⟩
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p a)
    = (fun i : S262144x8.Idx => stdFlat (V m c main_v0) (V m c main_v1) (V m c main_arg2) (V m c main_v2) (V m c main_arg4) (V m c main_v5) (V m c main_arg11) (V m c main_arg12) (V m c main_v8) (V m c main_arg20) (i 0) (i 1)) (((cfg0.win 22).blk t).view.emb (ix2 p a))
  rw [emb22]
  refine (out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p a).trans ?_
  simp only [blk0_apply, blk1_apply, blk2_apply, blk3_apply, blk4_apply, blk5_apply, blk6_apply, blk7_apply, blk8_apply, blk9_apply, blk10_apply, blk11_apply, blk12_apply, blk13_apply, blk14_apply, blk15_apply, blk16_apply, blk17_apply, blk18_apply, blk19_apply, blk20_apply]
  rfl

/-- An index of the array lies in point `t`'s block iff each coordinate is in the block's range on its axis. -/
theorem mem_blk22 (t : Fin cfg0.N) (i : S262144x8.Idx) :
    i ∈ ((cfg0.win 22).blk t).view.set ↔ ∀ a : Fin 2, win0_22.index t a * S2048x8.size a ≤ (i a).val
      ∧ (i a).val < win0_22.index t a * S2048x8.size a + S2048x8.size a := by
  show i ∈ ((View.whole main_v10_1).slice (win0_22.rect t)).set ↔ _
  rw [View.set_slice_whole, Rect.mem_set_unit]
  exact Iff.rfl

/-- Row `r` of the array is written by grid point `r / 2048`: the blocks cover the array. -/
theorem cover22 (i : S262144x8.Idx) :
    ∃ t : Fin cfg0.N, (cfg0.win 22).flush t = true ∧ i ∈ ((cfg0.win 22).blk t).view.set := by
  have hi0 : (i 0).val < 262144 := (i 0).isLt
  have hi1 : (i 1).val < 8 := (i 1).isLt
  have hN : cfg0.N = 128 := N_0
  obtain ⟨t, ht⟩ : ∃ t : Fin cfg0.N, t.val = (i 0).val / 2048 := ⟨⟨(i 0).val / 2048, by omega⟩, rfl⟩
  refine ⟨t, flush0_22 t, ?_⟩
  rw [mem_blk22]
  have e := idx_rows t
  intro a
  match a with
  | ⟨0, _⟩ => show win0_22.index t (0 : Fin 2) * 2048 ≤ (i 0).val ∧ (i 0).val < win0_22.index t (0 : Fin 2) * 2048 + 2048; omega
  | ⟨1, _⟩ => show win0_22.index t (1 : Fin 2) * 8 ≤ (i 1).val ∧ (i 1).val < win0_22.index t (1 : Fin 2) * 8 + 8; omega

/-- The array after the run: the whole-array function of the arrays the windows hold. -/
theorem final22 (c : Dev nD) : (dats m 0 c).arrAt 22 cfg0.N = fun i => stdFlat (V m c main_v0) (V m c main_v1) (V m c main_arg2) (V m c main_v2) (V m c main_arg4) (V m c main_v5) (V m c main_arg11) (V m c main_arg12) (V m c main_v8) (V m c main_arg20) (i 0) (i 1) :=
  (dats m 0 c).arrAt_eq_of_cover 22 _ (fun t _ => flushed22_eq m c t) cover22

theorem emb23 (t : Fin cfg0.N) (p : Fin 2048) (a : Fin 1) : ((cfg0.win 23).blk t).view.emb (ix2 p a) = ix2 (rowOf t p) a := by
  have e := idx_rows t
  funext d; apply Fin.ext
  match d with
  | ⟨0, _⟩ => show win0_23.index t (0 : Fin 2) * 2048 + 1 * p.val = t.val * 2048 + p.val; omega
  | ⟨1, _⟩ => show win0_23.index t (1 : Fin 2) * 1 + 1 * a.val = a.val; omega

/-- What grid point `t` writes back to this result's array is block `t` of the whole-array function. -/
theorem flushed23_eq (c : Dev nD) (t : Fin cfg0.N) :
    (dats m 0 c).flushed 23 t = ((cfg0.win 23).blk t).view.read (Elt Ideal)
      (fun i => valueFlat (V m c main_v0) (V m c main_v3) (V m c main_arg6) (V m c main_v4) (V m c main_arg8) (V m c main_v6) (V m c main_arg15) (V m c main_arg16) (V m c main_v9) (V m c main_arg22) (i 0) (i 1)) := by
  show (cfg0.win 23).cut (grid0.coords t) ((dats m 0 c).after 23 t) = _
  rw [after0_23]
  funext y
  obtain ⟨p, a, rfl⟩ : ∃ (p : Fin 2048) (a : Fin 1), y = ix2 p a := ⟨y 0, y 1, eq_ix2 y⟩
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p a)
    = (fun i : S262144x1.Idx => valueFlat (V m c main_v0) (V m c main_v3) (V m c main_arg6) (V m c main_v4) (V m c main_arg8) (V m c main_v6) (V m c main_arg15) (V m c main_arg16) (V m c main_v9) (V m c main_arg22) (i 0) (i 1)) (((cfg0.win 23).blk t).view.emb (ix2 p a))
  rw [emb23]
  refine (out23_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p a).trans ?_
  simp only [blk0_apply, blk1_apply, blk2_apply, blk3_apply, blk4_apply, blk5_apply, blk6_apply, blk7_apply, blk8_apply, blk9_apply, blk10_apply, blk11_apply, blk12_apply, blk13_apply, blk14_apply, blk15_apply, blk16_apply, blk17_apply, blk18_apply, blk19_apply, blk20_apply]
  rfl

/-- An index of the array lies in point `t`'s block iff each coordinate is in the block's range on its axis. -/
theorem mem_blk23 (t : Fin cfg0.N) (i : S262144x1.Idx) :
    i ∈ ((cfg0.win 23).blk t).view.set ↔ ∀ a : Fin 2, win0_23.index t a * S2048x1.size a ≤ (i a).val
      ∧ (i a).val < win0_23.index t a * S2048x1.size a + S2048x1.size a := by
  show i ∈ ((View.whole main_v10_2).slice (win0_23.rect t)).set ↔ _
  rw [View.set_slice_whole, Rect.mem_set_unit]
  exact Iff.rfl

/-- Row `r` of the array is written by grid point `r / 2048`: the blocks cover the array. -/
theorem cover23 (i : S262144x1.Idx) :
    ∃ t : Fin cfg0.N, (cfg0.win 23).flush t = true ∧ i ∈ ((cfg0.win 23).blk t).view.set := by
  have hi0 : (i 0).val < 262144 := (i 0).isLt
  have hi1 : (i 1).val < 1 := (i 1).isLt
  have hN : cfg0.N = 128 := N_0
  obtain ⟨t, ht⟩ : ∃ t : Fin cfg0.N, t.val = (i 0).val / 2048 := ⟨⟨(i 0).val / 2048, by omega⟩, rfl⟩
  refine ⟨t, flush0_23 t, ?_⟩
  rw [mem_blk23]
  have e := idx_rows t
  intro a
  match a with
  | ⟨0, _⟩ => show win0_23.index t (0 : Fin 2) * 2048 ≤ (i 0).val ∧ (i 0).val < win0_23.index t (0 : Fin 2) * 2048 + 2048; omega
  | ⟨1, _⟩ => show win0_23.index t (1 : Fin 2) * 1 ≤ (i 1).val ∧ (i 1).val < win0_23.index t (1 : Fin 2) * 1 + 1; omega

/-- The array after the run: the whole-array function of the arrays the windows hold. -/
theorem final23 (c : Dev nD) : (dats m 0 c).arrAt 23 cfg0.N = fun i => valueFlat (V m c main_v0) (V m c main_v3) (V m c main_arg6) (V m c main_v4) (V m c main_arg8) (V m c main_v6) (V m c main_arg15) (V m c main_arg16) (V m c main_v9) (V m c main_arg22) (i 0) (i 1) :=
  (dats m 0 c).arrAt_eq_of_cover 23 _ (fun t _ => flushed23_eq m c t) cover23

end Cert.KernelIdeal.Blocks

end
-- ==== Proof.SpecArrays.lean ====
/-
  The three results as whole arrays, index by index.

  The state is a `256 × 1024` grid of rows of 64 features; entry `(s, b, a)` of each result is a head applied to
  the cell output of row `(s, b)`: the mean head and the exponential of the spread head on the actor branch
  (8 outputs each), the value head on the critic branch (1 output).  Weights are read output-first, as the
  argument arrays hold them.
-/
import proofs.«127207_j85916525789512_1_alg».proof.Proof.Spec
import Idealize.ShloMosaic.Lib.ValueIdx

noncomputable section

namespace Cert.Spec

open Idealize.ShloMosaic Idealize.ShloMosaic.ValueIdx

/-- The cell output of row `(s, b)` of the state under one branch's weights. -/
def rowBranch (X : (⟨3, ![256, 1024, 64]⟩ : Shape).Idx → EReal)
    (W1 : (⟨2, ![128, 64]⟩ : Shape).Idx → EReal) (B1 : (⟨1, ![128]⟩ : Shape).Idx → EReal)
    (W2 : (⟨2, ![128, 128]⟩ : Shape).Idx → EReal) (B2 : (⟨1, ![128]⟩ : Shape).Idx → EReal)
    (Wih : (⟨2, ![512, 128]⟩ : Shape).Idx → EReal) (Bih Bhh : (⟨1, ![512]⟩ : Shape).Idx → EReal)
    (s : Fin 256) (b : Fin 1024) : Fin 128 → EReal :=
  branch (fun k => X (ix3 s b k)) (fun j k => W1 (ix2 j k)) (fun j => B1 (ix1 j)) (fun j k => W2 (ix2 j k))
    (fun j => B2 (ix1 j)) (fun g k => Wih (ix2 g k)) (fun g => Bih (ix1 g)) (fun g => Bhh (ix1 g))

/-- The mean: an affine head on the actor's cell output. -/
def meanArr (X : (⟨3, ![256, 1024, 64]⟩ : Shape).Idx → EReal)
    (W1 : (⟨2, ![128, 64]⟩ : Shape).Idx → EReal) (B1 : (⟨1, ![128]⟩ : Shape).Idx → EReal)
    (W2 : (⟨2, ![128, 128]⟩ : Shape).Idx → EReal) (B2 : (⟨1, ![128]⟩ : Shape).Idx → EReal)
    (Wih : (⟨2, ![512, 128]⟩ : Shape).Idx → EReal) (Bih Bhh : (⟨1, ![512]⟩ : Shape).Idx → EReal)
    (Hw : (⟨2, ![8, 128]⟩ : Shape).Idx → EReal) (Hb : (⟨1, ![8]⟩ : Shape).Idx → EReal) :
    (⟨3, ![256, 1024, 8]⟩ : Shape).Idx → EReal :=
  fun i => affine (rowBranch X W1 B1 W2 B2 Wih Bih Bhh (i 0) (i 1)) (fun a k => Hw (ix2 a k)) (fun a => Hb (ix1 a)) (i 2)

/-- The spread: the exponential of an affine head on the actor's cell output. -/
def stdArr (X : (⟨3, ![256, 1024, 64]⟩ : Shape).Idx → EReal)
    (W1 : (⟨2, ![128, 64]⟩ : Shape).Idx → EReal) (B1 : (⟨1, ![128]⟩ : Shape).Idx → EReal)
    (W2 : (⟨2, ![128, 128]⟩ : Shape).Idx → EReal) (B2 : (⟨1, ![128]⟩ : Shape).Idx → EReal)
    (Wih : (⟨2, ![512, 128]⟩ : Shape).Idx → EReal) (Bih Bhh : (⟨1, ![512]⟩ : Shape).Idx → EReal)
    (Hw : (⟨2, ![8, 128]⟩ : Shape).Idx → EReal) (Hb : (⟨1, ![8]⟩ : Shape).Idx → EReal) :
    (⟨3, ![256, 1024, 8]⟩ : Shape).Idx → EReal :=
  fun i => Ideal.exp (affine (rowBranch X W1 B1 W2 B2 Wih Bih Bhh (i 0) (i 1)) (fun a k => Hw (ix2 a k)) (fun a => Hb (ix1 a)) (i 2))

/-- The value: an affine head (one output) on the critic's cell output. -/
def valueArr (X : (⟨3, ![256, 1024, 64]⟩ : Shape).Idx → EReal)
    (W1 : (⟨2, ![128, 64]⟩ : Shape).Idx → EReal) (B1 : (⟨1, ![128]⟩ : Shape).Idx → EReal)
    (W2 : (⟨2, ![128, 128]⟩ : Shape).Idx → EReal) (B2 : (⟨1, ![128]⟩ : Shape).Idx → EReal)
    (Wih : (⟨2, ![512, 128]⟩ : Shape).Idx → EReal) (Bih Bhh : (⟨1, ![512]⟩ : Shape).Idx → EReal)
    (Hw : (⟨2, ![1, 128]⟩ : Shape).Idx → EReal) (Hb : (⟨1, ![1]⟩ : Shape).Idx → EReal) :
    (⟨3, ![256, 1024, 1]⟩ : Shape).Idx → EReal :=
  fun i => affine (rowBranch X W1 B1 W2 B2 Wih Bih Bhh (i 0) (i 1)) (fun a k => Hw (ix2 a k)) (fun a => Hb (ix1 a)) (i 2)

end Cert.Spec

end
-- ==== Proof.LibFlattenRows.lean ====
/-
  Flattening the two leading axes of a rank-3 array, read at an index.

  A shape cast keeps row-major positions.  Casting `[a, b, c]` to `[n, c]` (with `n = a · b`) puts entry
  `(s, t, k)` at `(s · b + t, k)`; casting back reads it from there.  Stated at symbolic extents.
-/
import Idealize.ShloMosaic.Lib.Pipeline.Value
import Idealize.ShloMosaic.Lib.ValueIdx

noncomputable section

namespace Cert.LibFlattenRows

open Idealize.ShloMosaic Idealize.ShloMosaic.ValueIdx

variable {α : Type} {a b c n : ℕ}

/-- `[a, b, c] → [n, c]`: entry `(r, k)` with `r = s · b + t` is the operand's `(s, t, k)`. -/
theorem flatten_apply (x : (⟨3, ![a, b, c]⟩ : Shape).Idx → α)
    (h : (⟨3, ![a, b, c]⟩ : Shape).ShapeCasts ⟨2, ![n, c]⟩)
    (s : Fin a) (t : Fin b) (k : Fin c) (r : Fin n) (hr : r.val = s.val * b + t.val) :
    shapeCast ⟨2, ![n, c]⟩ x h (ix2 r k) = x (ix3 s t k) :=
  shapeCast_apply x h _ _ (by
    rw [Shape.rowMajor_val_three, Shape.rowMajor_val_two]
    show (s.val * b + t.val) * c + k.val = r.val * c + k.val
    rw [hr])

/-- `[n, c] → [a, b, c]`: entry `(s, t, k)` is the operand's `(r, k)` with `r = s · b + t`. -/
theorem unflatten_apply (x : (⟨2, ![n, c]⟩ : Shape).Idx → α)
    (h : (⟨2, ![n, c]⟩ : Shape).ShapeCasts ⟨3, ![a, b, c]⟩)
    (s : Fin a) (t : Fin b) (k : Fin c) (r : Fin n) (hr : r.val = s.val * b + t.val) :
    shapeCast ⟨3, ![a, b, c]⟩ x h (ix3 s t k) = x (ix2 r k) :=
  shapeCast_apply x h _ _ (by
    rw [Shape.rowMajor_val_two, Shape.rowMajor_val_three]
    show r.val * c + k.val = (s.val * b + t.val) * c + k.val
    rw [hr])

end Cert.LibFlattenRows

end
-- ==== Proof.KernelRun.lean ====
/-
  The kernel program's run, read back at the arguments.

  Before the kernel the host flattens the state to `262144 × 64` (row `1024 s + b` is row `(s, b)`) and transposes
  each weight matrix; after it the host reshapes the three `262144 × ·` results back to `256 × 1024 × ·`.  Read
  through these, the whole-array functions of the blocks module are the specification's arrays of the
  argument arrays: a transposed weight read input-first is the argument read output-first, and flattened row
  `1024 s + b` of the state is its row `(s, b)`.
-/
import proofs.«127207_j85916525789512_1_alg».proof.Proof.Gen.KernelIdeal.Frame
import proofs.«127207_j85916525789512_1_alg».proof.Proof.KernelBlocks
import proofs.«127207_j85916525789512_1_alg».proof.Proof.SpecArrays
import proofs.«127207_j85916525789512_1_alg».proof.Proof.LibFlattenRows
import Idealize.ShloMosaic.Lib.Pipeline.Value
import Idealize.ShloMosaic.Lib.ValueLayout
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The arrays the kernel's windows find, from the arguments -/

theorem V_main_v0 (c : Dev nD) :
    V m c main_v0 = shapeCast S262144x64 (m ((c : Thread nD τ).loc main_arg0)) shapeCasts_S256x1024x64_S262144x64 := by
  show StableHlo.after hostOps0 (fun b => m (c, b)) (Proc.devRef .tc main_v0) = _
  after_results
  rfl

theorem V_main_v1 (c : Dev nD) :
    V m c main_v1 = transpose S64x128 [1, 0] (m ((c : Thread nD τ).loc main_arg1)) transposes_S128x64_S64x128_1_0 := by
  show StableHlo.after hostOps0 (fun b => m (c, b)) (Proc.devRef .tc main_v1) = _
  after_results

theorem V_main_v2 (c : Dev nD) :
    V m c main_v2 = transpose S128x128 [1, 0] (m ((c : Thread nD τ).loc main_arg3)) transposes_S128x128_S128x128_1_0 := by
  show StableHlo.after hostOps0 (fun b => m (c, b)) (Proc.devRef .tc main_v2) = _
  after_results

theorem V_main_v3 (c : Dev nD) :
    V m c main_v3 = transpose S64x128 [1, 0] (m ((c : Thread nD τ).loc main_arg5)) transposes_S128x64_S64x128_1_0 := by
  show StableHlo.after hostOps0 (fun b => m (c, b)) (Proc.devRef .tc main_v3) = _
  after_results

theorem V_main_v4 (c : Dev nD) :
    V m c main_v4 = transpose S128x128 [1, 0] (m ((c : Thread nD τ).loc main_arg7)) transposes_S128x128_S128x128_1_0 := by
  show StableHlo.after hostOps0 (fun b => m (c, b)) (Proc.devRef .tc main_v4) = _
  after_results

theorem V_main_v5 (c : Dev nD) :
    V m c main_v5 = transpose S128x512 [1, 0] (m ((c : Thread nD τ).loc main_arg9)) transposes_S512x128_S128x512_1_0 := by
  show StableHlo.after hostOps0 (fun b => m (c, b)) (Proc.devRef .tc main_v5) = _
  after_results

theorem V_main_v6 (c : Dev nD) :
    V m c main_v6 = transpose S128x512 [1, 0] (m ((c : Thread nD τ).loc main_arg13)) transposes_S512x128_S128x512_1_0 := by
  show StableHlo.after hostOps0 (fun b => m (c, b)) (Proc.devRef .tc main_v6) = _
  after_results

theorem V_main_v7 (c : Dev nD) :
    V m c main_v7 = transpose S128x8 [1, 0] (m ((c : Thread nD τ).loc main_arg17)) transposes_S8x128_S128x8_1_0 := by
  show StableHlo.after hostOps0 (fun b => m (c, b)) (Proc.devRef .tc main_v7) = _
  after_results

theorem V_main_v8 (c : Dev nD) :
    V m c main_v8 = transpose S128x8 [1, 0] (m ((c : Thread nD τ).loc main_arg19)) transposes_S8x128_S128x8_1_0 := by
  show StableHlo.after hostOps0 (fun b => m (c, b)) (Proc.devRef .tc main_v8) = _
  after_results

theorem V_main_v9 (c : Dev nD) :
    V m c main_v9 = transpose S128x1 [1, 0] (m ((c : Thread nD τ).loc main_arg21)) transposes_S1x128_S128x1_1_0 := by
  show StableHlo.after hostOps0 (fun b => m (c, b)) (Proc.devRef .tc main_v9) = _
  after_results

/-- Row `1024 s + b` of the flattened state is row `(s, b)` of the state. -/
theorem V0_apply (c : Dev nD) (s : Fin 256) (b : Fin 1024) (k : Fin 64) (r : Fin 262144) (hr : r.val = s.val * 1024 + b.val) :
    V m c main_v0 (ix2 r k) = m ((c : Thread nD τ).loc main_arg0) (ix3 s b k) := by
  rw [V_main_v0]
  exact Cert.LibFlattenRows.flatten_apply _ _ s b k r hr

/-! A transposed weight read input-first is the argument read output-first. -/

theorem V1_apply (c : Dev nD) (k : Fin 64) (j : Fin 128) :
    V m c main_v1 (ix2 k j) = m ((c : Thread nD τ).loc main_arg1) (ix2 j k) := by
  rw [V_main_v1]
  exact transpose_ix2_apply _ _ k j

theorem V2_apply (c : Dev nD) (k : Fin 128) (j : Fin 128) :
    V m c main_v2 (ix2 k j) = m ((c : Thread nD τ).loc main_arg3) (ix2 j k) := by
  rw [V_main_v2]
  exact transpose_ix2_apply _ _ k j

theorem V3_apply (c : Dev nD) (k : Fin 64) (j : Fin 128) :
    V m c main_v3 (ix2 k j) = m ((c : Thread nD τ).loc main_arg5) (ix2 j k) := by
  rw [V_main_v3]
  exact transpose_ix2_apply _ _ k j

theorem V4_apply (c : Dev nD) (k : Fin 128) (j : Fin 128) :
    V m c main_v4 (ix2 k j) = m ((c : Thread nD τ).loc main_arg7) (ix2 j k) := by
  rw [V_main_v4]
  exact transpose_ix2_apply _ _ k j

theorem V5_apply (c : Dev nD) (k : Fin 128) (j : Fin 512) :
    V m c main_v5 (ix2 k j) = m ((c : Thread nD τ).loc main_arg9) (ix2 j k) := by
  rw [V_main_v5]
  exact transpose_ix2_apply _ _ k j

theorem V6_apply (c : Dev nD) (k : Fin 128) (j : Fin 512) :
    V m c main_v6 (ix2 k j) = m ((c : Thread nD τ).loc main_arg13) (ix2 j k) := by
  rw [V_main_v6]
  exact transpose_ix2_apply _ _ k j

theorem V7_apply (c : Dev nD) (k : Fin 128) (j : Fin 8) :
    V m c main_v7 (ix2 k j) = m ((c : Thread nD τ).loc main_arg17) (ix2 j k) := by
  rw [V_main_v7]
  exact transpose_ix2_apply _ _ k j

theorem V8_apply (c : Dev nD) (k : Fin 128) (j : Fin 8) :
    V m c main_v8 (ix2 k j) = m ((c : Thread nD τ).loc main_arg19) (ix2 j k) := by
  rw [V_main_v8]
  exact transpose_ix2_apply _ _ k j

theorem V9_apply (c : Dev nD) (k : Fin 128) (j : Fin 1) :
    V m c main_v9 (ix2 k j) = m ((c : Thread nD τ).loc main_arg21) (ix2 j k) := by
  rw [V_main_v9]
  exact transpose_ix2_apply _ _ k j

/-! ## The results, from the arrays the kernel leaves -/

theorem tail_v11 (c : Dev nD) :
    Pipeline.afterTail₀ cfgs (dats m) 0 (V0 m) [hostOps1] c main_v11
      = shapeCast S256x1024x8 ((dats m 0 c).arrAt 21 cfg0.N) shapeCasts_S262144x8_S256x1024x8 := by
  unfold Pipeline.afterTail₀
  show StableHlo.after hostOps1 _ (Proc.devRef .tc main_v11) = _
  after_results
  have e := Pipeline.withArrays_arr (τ := τ) spec0 launch0.win.arr_inj c (V0 m c) (fun w => (dats m 0 c).arrAt w (cfgs 0).N) 21
  funext i
  exact congrArg (fun X => shapeCast S256x1024x8 X shapeCasts_S262144x8_S256x1024x8 i) e

theorem tail_v12 (c : Dev nD) :
    Pipeline.afterTail₀ cfgs (dats m) 0 (V0 m) [hostOps1] c main_v12
      = shapeCast S256x1024x8 ((dats m 0 c).arrAt 22 cfg0.N) shapeCasts_S262144x8_S256x1024x8 := by
  unfold Pipeline.afterTail₀
  show StableHlo.after hostOps1 _ (Proc.devRef .tc main_v12) = _
  after_results
  have e := Pipeline.withArrays_arr (τ := τ) spec0 launch0.win.arr_inj c (V0 m c) (fun w => (dats m 0 c).arrAt w (cfgs 0).N) 22
  funext i
  exact congrArg (fun X => shapeCast S256x1024x8 X shapeCasts_S262144x8_S256x1024x8 i) e

theorem tail_v13 (c : Dev nD) :
    Pipeline.afterTail₀ cfgs (dats m) 0 (V0 m) [hostOps1] c main_v13
      = shapeCast S256x1024x1 ((dats m 0 c).arrAt 23 cfg0.N) shapeCasts_S262144x1_S256x1024x1 := by
  unfold Pipeline.afterTail₀
  show StableHlo.after hostOps1 _ (Proc.devRef .tc main_v13) = _
  after_results
  have e := Pipeline.withArrays_arr (τ := τ) spec0 launch0.win.arr_inj c (V0 m c) (fun w => (dats m 0 c).arrAt w (cfgs 0).N) 23
  funext i
  exact congrArg (fun X => shapeCast S256x1024x1 X shapeCasts_S262144x1_S256x1024x1 i) e

/-- Over the flattened rows and the transposed weights the kernel's function is the specification's, entry by entry. -/
theorem meanFlat_eq (c : Dev nD) (s : Fin 256) (b : Fin 1024) (a : Fin 8) (r : Fin 262144) (hr : r.val = s.val * 1024 + b.val) :
    Blocks.meanFlat (V m c main_v0) (V m c main_v1) (V m c main_arg2) (V m c main_v2) (V m c main_arg4) (V m c main_v5) (V m c main_arg11) (V m c main_arg12) (V m c main_v7) (V m c main_arg18) r a
      = Cert.Spec.meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg11)) (m ((c : Thread nD τ).loc main_arg12)) (m ((c : Thread nD τ).loc main_arg17)) (m ((c : Thread nD τ).loc main_arg18)) (ix3 s b a) := by
  unfold Blocks.meanFlat Cert.Spec.meanArr Cert.Spec.rowBranch
  rw [V_main_arg2 m c, V_main_arg4 m c, V_main_arg11 m c, V_main_arg12 m c, V_main_arg18 m c]
  simp only [V0_apply m c s b _ r hr, V1_apply m c, V2_apply m c, V5_apply m c, V7_apply m c]

/-- The result as the host lines after the kernel leave it. -/
theorem res_mean (c : Dev nD) :
    Pipeline.afterTail₀ cfgs (dats m) 0 (V0 m) [hostOps1] c main_v11
      = Cert.Spec.meanArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg11)) (m ((c : Thread nD τ).loc main_arg12)) (m ((c : Thread nD τ).loc main_arg17)) (m ((c : Thread nD τ).loc main_arg18)) := by
  rw [tail_v11]
  funext i
  obtain ⟨s, b, a, rfl⟩ : ∃ (s : Fin 256) (b : Fin 1024) (a : Fin 8), i = ix3 s b a := ⟨i 0, i 1, i 2, eq_ix3 i⟩
  have hs := s.isLt
  have hb := b.isLt
  rw [Cert.LibFlattenRows.unflatten_apply _ _ s b a ⟨s.val * 1024 + b.val, by omega⟩ rfl, Blocks.final21]
  exact meanFlat_eq m c s b a _ rfl

/-- Over the flattened rows and the transposed weights the kernel's function is the specification's, entry by entry. -/
theorem stdFlat_eq (c : Dev nD) (s : Fin 256) (b : Fin 1024) (a : Fin 8) (r : Fin 262144) (hr : r.val = s.val * 1024 + b.val) :
    Blocks.stdFlat (V m c main_v0) (V m c main_v1) (V m c main_arg2) (V m c main_v2) (V m c main_arg4) (V m c main_v5) (V m c main_arg11) (V m c main_arg12) (V m c main_v8) (V m c main_arg20) r a
      = Cert.Spec.stdArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg11)) (m ((c : Thread nD τ).loc main_arg12)) (m ((c : Thread nD τ).loc main_arg19)) (m ((c : Thread nD τ).loc main_arg20)) (ix3 s b a) := by
  unfold Blocks.stdFlat Cert.Spec.stdArr Cert.Spec.rowBranch
  rw [V_main_arg2 m c, V_main_arg4 m c, V_main_arg11 m c, V_main_arg12 m c, V_main_arg20 m c]
  simp only [V0_apply m c s b _ r hr, V1_apply m c, V2_apply m c, V5_apply m c, V8_apply m c]

/-- The result as the host lines after the kernel leave it. -/
theorem res_std (c : Dev nD) :
    Pipeline.afterTail₀ cfgs (dats m) 0 (V0 m) [hostOps1] c main_v12
      = Cert.Spec.stdArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg11)) (m ((c : Thread nD τ).loc main_arg12)) (m ((c : Thread nD τ).loc main_arg19)) (m ((c : Thread nD τ).loc main_arg20)) := by
  rw [tail_v12]
  funext i
  obtain ⟨s, b, a, rfl⟩ : ∃ (s : Fin 256) (b : Fin 1024) (a : Fin 8), i = ix3 s b a := ⟨i 0, i 1, i 2, eq_ix3 i⟩
  have hs := s.isLt
  have hb := b.isLt
  rw [Cert.LibFlattenRows.unflatten_apply _ _ s b a ⟨s.val * 1024 + b.val, by omega⟩ rfl, Blocks.final22]
  exact stdFlat_eq m c s b a _ rfl

/-- Over the flattened rows and the transposed weights the kernel's function is the specification's, entry by entry. -/
theorem valueFlat_eq (c : Dev nD) (s : Fin 256) (b : Fin 1024) (a : Fin 1) (r : Fin 262144) (hr : r.val = s.val * 1024 + b.val) :
    Blocks.valueFlat (V m c main_v0) (V m c main_v3) (V m c main_arg6) (V m c main_v4) (V m c main_arg8) (V m c main_v6) (V m c main_arg15) (V m c main_arg16) (V m c main_v9) (V m c main_arg22) r a
      = Cert.Spec.valueArr (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg15)) (m ((c : Thread nD τ).loc main_arg16)) (m ((c : Thread nD τ).loc main_arg21)) (m ((c : Thread nD τ).loc main_arg22)) (ix3 s b a) := by
  unfold Blocks.valueFlat Cert.Spec.valueArr Cert.Spec.rowBranch
  rw [V_main_arg6 m c, V_main_arg8 m c, V_main_arg15 m c, V_main_arg16 m c, V_main_arg22 m c]
  simp only [V0_apply m c s b _ r hr, V3_apply m c, V4_apply m c, V6_apply m c, V9_apply m c]

/-- The result as the host lines after the kernel leave it. -/
theorem res_value (c : Dev nD) :
    Pipeline.afterTail₀ cfgs (dats m) 0 (V0 m) [hostOps1] c main_v13
      = Cert.Spec.valueArr (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg15)) (m ((c : Thread nD τ).loc main_arg16)) (m ((c : Thread nD τ).loc main_arg21)) (m ((c : Thread nD τ).loc main_arg22)) := by
  rw [tail_v13]
  funext i
  obtain ⟨s, b, a, rfl⟩ : ∃ (s : Fin 256) (b : Fin 1024) (a : Fin 1), i = ix3 s b a := ⟨i 0, i 1, i 2, eq_ix3 i⟩
  have hs := s.isLt
  have hb := b.isLt
  rw [Cert.LibFlattenRows.unflatten_apply _ _ s b a ⟨s.val * 1024 + b.val, by omega⟩ rfl, Blocks.final23]
  exact valueFlat_eq m c s b a _ rfl

/-! ## The run -/

/-- After the run every argument array is as launched: a staged input is never written back, and no host line
    writes an argument. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨(((h c).2 main_arg0 (Pipeline.mem_restRefs_of main_arg0 (by decide) (by decide))).trans (W_main_arg0 m (dats m) c)),
   (((h c).2 main_arg1 (Pipeline.mem_restRefs_of main_arg1 (by decide) (by decide))).trans (W_main_arg1 m (dats m) c)),
   ((h c).1 2).trans (((dats m 0 c).arrAt_in 2 rfl _).trans ((A_eq m c 2).trans (V_main_arg2 m c))),
   (((h c).2 main_arg3 (Pipeline.mem_restRefs_of main_arg3 (by decide) (by decide))).trans (W_main_arg3 m (dats m) c)),
   ((h c).1 4).trans (((dats m 0 c).arrAt_in 4 rfl _).trans ((A_eq m c 4).trans (V_main_arg4 m c))),
   (((h c).2 main_arg5 (Pipeline.mem_restRefs_of main_arg5 (by decide) (by decide))).trans (W_main_arg5 m (dats m) c)),
   ((h c).1 6).trans (((dats m 0 c).arrAt_in 6 rfl _).trans ((A_eq m c 6).trans (V_main_arg6 m c))),
   (((h c).2 main_arg7 (Pipeline.mem_restRefs_of main_arg7 (by decide) (by decide))).trans (W_main_arg7 m (dats m) c)),
   ((h c).1 8).trans (((dats m 0 c).arrAt_in 8 rfl _).trans ((A_eq m c 8).trans (V_main_arg8 m c))),
   (((h c).2 main_arg9 (Pipeline.mem_restRefs_of main_arg9 (by decide) (by decide))).trans (W_main_arg9 m (dats m) c)),
   (((h c).2 main_arg10 (Pipeline.mem_restRefs_of main_arg10 (by decide) (by decide))).trans (W_main_arg10 m (dats m) c)),
   ((h c).1 10).trans (((dats m 0 c).arrAt_in 10 rfl _).trans ((A_eq m c 10).trans (V_main_arg11 m c))),
   ((h c).1 11).trans (((dats m 0 c).arrAt_in 11 rfl _).trans ((A_eq m c 11).trans (V_main_arg12 m c))),
   (((h c).2 main_arg13 (Pipeline.mem_restRefs_of main_arg13 (by decide) (by decide))).trans (W_main_arg13 m (dats m) c)),
   (((h c).2 main_arg14 (Pipeline.mem_restRefs_of main_arg14 (by decide) (by decide))).trans (W_main_arg14 m (dats m) c)),
   ((h c).1 13).trans (((dats m 0 c).arrAt_in 13 rfl _).trans ((A_eq m c 13).trans (V_main_arg15 m c))),
   ((h c).1 14).trans (((dats m 0 c).arrAt_in 14 rfl _).trans ((A_eq m c 14).trans (V_main_arg16 m c))),
   (((h c).2 main_arg17 (Pipeline.mem_restRefs_of main_arg17 (by decide) (by decide))).trans (W_main_arg17 m (dats m) c)),
   ((h c).1 16).trans (((dats m 0 c).arrAt_in 16 rfl _).trans ((A_eq m c 16).trans (V_main_arg18 m c))),
   (((h c).2 main_arg19 (Pipeline.mem_restRefs_of main_arg19 (by decide) (by decide))).trans (W_main_arg19 m (dats m) c)),
   ((h c).1 18).trans (((dats m 0 c).arrAt_in 18 rfl _).trans ((A_eq m c 18).trans (V_main_arg20 m c))),
   (((h c).2 main_arg21 (Pipeline.mem_restRefs_of main_arg21 (by decide) (by decide))).trans (W_main_arg21 m (dats m) c)),
   ((h c).1 20).trans (((dats m 0 c).arrAt_in 20 rfl _).trans ((A_eq m c 20).trans (V_main_arg22 m c)))⟩

/-- Every weakly fair execution of the idealized kernel program terminates with the three results at the
    specification's arrays of the arguments, the arguments unchanged. -/
theorem run : θ_run defs (onTc (τ := τ) (main (F := Ideal))) ⟨m, fun _ => 0, ρ⟩ fun r => ∀ c : Dev nD,
      r.2.mem ((c.tc : Thread nD τ).loc main_v11) = Cert.Spec.meanArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg11)) (m ((c.tc : Thread nD τ).loc main_arg12)) (m ((c.tc : Thread nD τ).loc main_arg17)) (m ((c.tc : Thread nD τ).loc main_arg18))
      ∧ r.2.mem ((c.tc : Thread nD τ).loc main_v12) = Cert.Spec.stdArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg11)) (m ((c.tc : Thread nD τ).loc main_arg12)) (m ((c.tc : Thread nD τ).loc main_arg19)) (m ((c.tc : Thread nD τ).loc main_arg20))
      ∧ r.2.mem ((c.tc : Thread nD τ).loc main_v13) = Cert.Spec.valueArr (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg15)) (m ((c.tc : Thread nD τ).loc main_arg16)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c =>
    ⟨((h c).2 main_v11 (Pipeline.mem_restRefs_of main_v11 (by decide) (by decide))).trans (res_mean m c),
     ((h c).2 main_v12 (Pipeline.mem_restRefs_of main_v12 (by decide) (by decide))).trans (res_std m c),
     ((h c).2 main_v13 (Pipeline.mem_restRefs_of main_v13 (by decide) (by decide))).trans (res_value m c),
     kept m r h c⟩) (run_main m ρ)

end Cert.KernelIdeal.RunValue

end
-- ==== Proof.RefValue.lean ====
/-
  The reference, index by index.

  Each of the reference's three results, read at `(s, b, a)` through its operations one at a time, is the head
  of `Spec` applied to the cell output of row `(s, b)` of the state: its contractions are the textbook sums, its
  rectifier the maximum with zero, and its gate nonlinearity `1 / (1 + exp (-x))` is the logistic function.
-/
import proofs.«127207_j85916525789512_1_alg».proof.Proof.Gen.ReferenceIdeal.Run
import proofs.«127207_j85916525789512_1_alg».proof.Proof.Gen.ReferenceIdeal.Read
import proofs.«127207_j85916525789512_1_alg».proof.Proof.SpecArrays
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Read

/-- The bit pattern of the constant the gate nonlinearity adds to and divides: it is the number one. -/
theorem one_bits : Ideal.ofBits .f32 0x3F800000#32 = 1 := by
  simp [Ideal.ofBits, Ideal.ieee, -EReal.coe_mul]; norm_num

/-! ### The actor branch

Where each of its operations reads its operands, in coordinates: a contraction of row `(s, b)` with row `j` of a
weight matrix reads `(s, b, k)` and `(j, k)`; a bias spread over the grid reads entry `j`. -/

theorem actor_l1_lhs (s : Fin 256) (b : Fin 1024) (j : Fin 128) (k : Fin 64) :
    lidx_main_v0 (ix3 s b j) k = ix3 s b k :=
  funext fun a => Fin.ext (by match a with | ⟨0, _⟩ => rfl | ⟨1, _⟩ => rfl | ⟨2, _⟩ => rfl)
theorem actor_l1_rhs (s : Fin 256) (b : Fin 1024) (j : Fin 128) (k : Fin 64) :
    ridx_main_v0 (ix3 s b j) k = ix2 j k :=
  funext fun a => Fin.ext (by match a with | ⟨0, _⟩ => rfl | ⟨1, _⟩ => rfl)
theorem actor_l1_bias (s : Fin 256) (b : Fin 1024) (j : Fin 128) :
    idx_main_v1 (idx_main_v2 (ix3 s b j)) = ix1 j :=
  funext fun a => Fin.ext (by match a with | ⟨0, _⟩ => rfl)
theorem actor_l2_lhs (s : Fin 256) (b : Fin 1024) (j k : Fin 128) :
    lidx_main_v5 (ix3 s b j) k = ix3 s b k :=
  funext fun a => Fin.ext (by match a with | ⟨0, _⟩ => rfl | ⟨1, _⟩ => rfl | ⟨2, _⟩ => rfl)
theorem actor_l2_rhs (s : Fin 256) (b : Fin 1024) (j k : Fin 128) :
    ridx_main_v5 (ix3 s b j) k = ix2 j k :=
  funext fun a => Fin.ext (by match a with | ⟨0, _⟩ => rfl | ⟨1, _⟩ => rfl)
theorem actor_l2_bias (s : Fin 256) (b : Fin 1024) (j : Fin 128) :
    idx_main_v6 (idx_main_v7 (ix3 s b j)) = ix1 j :=
  funext fun a => Fin.ext (by match a with | ⟨0, _⟩ => rfl)
theorem actor_g_lhs (s : Fin 256) (b : Fin 1024) (g : Fin 512) (k : Fin 128) :
    lidx_main_v10 (ix3 s b g) k = ix3 s b k :=
  funext fun a => Fin.ext (by match a with | ⟨0, _⟩ => rfl | ⟨1, _⟩ => rfl | ⟨2, _⟩ => rfl)
theorem actor_g_rhs (s : Fin 256) (b : Fin 1024) (g : Fin 512) (k : Fin 128) :
    ridx_main_v10 (ix3 s b g) k = ix2 g k :=
  funext fun a => Fin.ext (by match a with | ⟨0, _⟩ => rfl | ⟨1, _⟩ => rfl)
theorem actor_g_bias_ih (s : Fin 256) (b : Fin 1024) (g : Fin 512) :
    idx_main_v11 (idx_main_v12 (ix3 s b g)) = ix1 g :=
  funext fun a => Fin.ext (by match a with | ⟨0, _⟩ => rfl)
theorem actor_g_bias_hh (s : Fin 256) (b : Fin 1024) (g : Fin 512) :
    idx_main_v14 (idx_main_v15 (ix3 s b g)) = ix1 g :=
  funext fun a => Fin.ext (by match a with | ⟨0, _⟩ => rfl)

/-- The three groups of gate columns that are read: columns `j`, `256 + j` and `384 + j`. -/
theorem actor_slice_in (s : Fin 256) (b : Fin 1024) (j : Fin 128) :
    idx_main_v17 (ix3 s b j) = ix3 s b (⟨j.val, by omega⟩ : Fin 512) :=
  funext fun a => Fin.ext (by match a with | ⟨0, _⟩ => rfl | ⟨1, _⟩ => rfl | ⟨2, _⟩ => rfl)
theorem actor_slice_cand (s : Fin 256) (b : Fin 1024) (j : Fin 128) :
    idx_main_v19 (ix3 s b j) = ix3 s b (⟨256 + j.val, by omega⟩ : Fin 512) :=
  funext fun a => Fin.ext (by match a with | ⟨0, _⟩ => rfl | ⟨1, _⟩ => rfl | ⟨2, _⟩ => rfl)
theorem actor_slice_out (s : Fin 256) (b : Fin 1024) (j : Fin 128) :
    idx_main_v20 (ix3 s b j) = ix3 s b (⟨384 + j.val, by omega⟩ : Fin 512) :=
  funext fun a => Fin.ext (by match a with | ⟨0, _⟩ => rfl | ⟨1, _⟩ => rfl | ⟨2, _⟩ => rfl)

/-- The first dense layer of row `(s, b)`. -/
theorem actor_layer1 (x0 : (⟨S256x1024x64, .f32⟩ : BufTy).Contents (Elt Ideal)) (x1 : (⟨S128x64, .f32⟩ : BufTy).Contents (Elt Ideal))
    (x2 : (⟨S128, .f32⟩ : BufTy).Contents (Elt Ideal)) (s : Fin 256) (b : Fin 1024) (j : Fin 128) :
    val_main_v4 (F := Ideal) x0 x1 x2 (ix3 s b j)
      = Cert.Spec.layer (fun k => x0 (ix3 s b k)) (fun j k => x1 (ix2 j k)) (fun j => x2 (ix1 j)) j := by
  simp only [val_main_v4_apply, val_main_v3_apply, val_main_v0_apply, val_main_v2_apply, val_main_v1_apply,
    val_main_call0_v0_apply, val_main_call0_cst_apply, actor_l1_lhs, actor_l1_rhs, actor_l1_bias,
    Ideal.addf_def, Ideal.maximumf_def, Ideal.ofBits_def, Cert.Spec.layer, Cert.Spec.affine, Cert.Spec.zero]

/-- The second dense layer of row `(s, b)`. -/
theorem actor_layer2 (x0 : (⟨S256x1024x64, .f32⟩ : BufTy).Contents (Elt Ideal)) (x1 : (⟨S128x64, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (s : Fin 256) (b : Fin 1024) (j : Fin 128) :
    val_main_v9 (F := Ideal) x0 x1 x2 x3 x4 (ix3 s b j)
      = Cert.Spec.layer (Cert.Spec.layer (fun k => x0 (ix3 s b k)) (fun j k => x1 (ix2 j k)) (fun j => x2 (ix1 j)))
          (fun j k => x3 (ix2 j k)) (fun j => x4 (ix1 j)) j := by
  simp only [val_main_v9_apply, val_main_v8_apply, val_main_v5_apply, val_main_v7_apply, val_main_v6_apply,
    val_main_call1_v0_apply, val_main_call1_cst_apply, actor_l2_lhs, actor_l2_rhs, actor_l2_bias, actor_layer1,
    Ideal.addf_def, Ideal.maximumf_def, Ideal.ofBits_def, Cert.Spec.layer, Cert.Spec.affine, Cert.Spec.zero]

/-- The gate pre-activations of row `(s, b)`. -/
theorem actor_gates (x0 : (⟨S256x1024x64, .f32⟩ : BufTy).Contents (Elt Ideal)) (x1 : (⟨S128x64, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x9 : (⟨S512x128, .f32⟩ : BufTy).Contents (Elt Ideal))
    (x11 x12 : (⟨S512, .f32⟩ : BufTy).Contents (Elt Ideal)) (s : Fin 256) (b : Fin 1024) (g : Fin 512) :
    val_main_v16 (F := Ideal) x0 x1 x2 x3 x4 x9 x11 x12 (ix3 s b g)
      = Cert.Spec.gates (fun k => x0 (ix3 s b k)) (fun j k => x1 (ix2 j k)) (fun j => x2 (ix1 j))
          (fun j k => x3 (ix2 j k)) (fun j => x4 (ix1 j)) (fun g k => x9 (ix2 g k))
          (fun g => x11 (ix1 g)) (fun g => x12 (ix1 g)) g := by
  simp only [val_main_v16_apply, val_main_v13_apply, val_main_v15_apply, val_main_v14_apply, val_main_v10_apply,
    val_main_v12_apply, val_main_v11_apply, actor_g_lhs, actor_g_rhs, actor_g_bias_ih, actor_g_bias_hh, actor_layer2,
    Ideal.addf_def, Cert.Spec.gates, Cert.Spec.affine]

/-- The cell output of row `(s, b)`: the gate nonlinearity `1 / (1 + exp (-x))` is the logistic function. -/
theorem actor_cell (x0 : (⟨S256x1024x64, .f32⟩ : BufTy).Contents (Elt Ideal)) (x1 : (⟨S128x64, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x9 : (⟨S512x128, .f32⟩ : BufTy).Contents (Elt Ideal))
    (x11 x12 : (⟨S512, .f32⟩ : BufTy).Contents (Elt Ideal)) (s : Fin 256) (b : Fin 1024) (j : Fin 128) :
    val_main_v36 (F := Ideal) x0 x1 x2 x3 x4 x9 x11 x12 (ix3 s b j)
      = Cert.Spec.rowBranch x0 x1 x2 x3 x4 x9 x11 x12 s b j := by
  simp only [val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v17_apply,
    val_main_cst_apply, val_main_cst_0_apply, val_main_cst_1_apply, val_main_cst_2_apply,
    actor_slice_in, actor_slice_cand, actor_slice_out, actor_gates,
    Ideal.mulf_def, Ideal.addf_def, Ideal.hostDivf_def, Ideal.hostNegf_def, Ideal.negf_def, Ideal.hostUnary_exp_def,
    Ideal.hostUnary_tanh_def, Ideal.ofBits_def, one_bits,
    Cert.Spec.rowBranch, Cert.Spec.branch, Cert.Spec.cell, Ideal.logistic]

/-! ### The two heads on the actor's cell output -/

theorem mean_lhs (s : Fin 256) (b : Fin 1024) (a : Fin 8) (k : Fin 128) :
    lidx_main_v74 (ix3 s b a) k = ix3 s b k :=
  funext fun d => Fin.ext (by match d with | ⟨0, _⟩ => rfl | ⟨1, _⟩ => rfl | ⟨2, _⟩ => rfl)
theorem mean_rhs (s : Fin 256) (b : Fin 1024) (a : Fin 8) (k : Fin 128) :
    ridx_main_v74 (ix3 s b a) k = ix2 a k :=
  funext fun d => Fin.ext (by match d with | ⟨0, _⟩ => rfl | ⟨1, _⟩ => rfl)
theorem mean_bias (s : Fin 256) (b : Fin 1024) (a : Fin 8) :
    idx_main_v75 (idx_main_v76 (ix3 s b a)) = ix1 a :=
  funext fun d => Fin.ext (by match d with | ⟨0, _⟩ => rfl)
theorem std_lhs (s : Fin 256) (b : Fin 1024) (a : Fin 8) (k : Fin 128) :
    lidx_main_v78 (ix3 s b a) k = ix3 s b k :=
  funext fun d => Fin.ext (by match d with | ⟨0, _⟩ => rfl | ⟨1, _⟩ => rfl | ⟨2, _⟩ => rfl)
theorem std_rhs (s : Fin 256) (b : Fin 1024) (a : Fin 8) (k : Fin 128) :
    ridx_main_v78 (ix3 s b a) k = ix2 a k :=
  funext fun d => Fin.ext (by match d with | ⟨0, _⟩ => rfl | ⟨1, _⟩ => rfl)
theorem std_bias (s : Fin 256) (b : Fin 1024) (a : Fin 8) :
    idx_main_v79 (idx_main_v80 (ix3 s b a)) = ix1 a :=
  funext fun d => Fin.ext (by match d with | ⟨0, _⟩ => rfl)

/-! ### The critic branch

The same chain of operations over the critic's weights. -/

theorem critic_l1_lhs (s : Fin 256) (b : Fin 1024) (j : Fin 128) (k : Fin 64) :
    lidx_main_v37 (ix3 s b j) k = ix3 s b k :=
  funext fun a => Fin.ext (by match a with | ⟨0, _⟩ => rfl | ⟨1, _⟩ => rfl | ⟨2, _⟩ => rfl)
theorem critic_l1_rhs (s : Fin 256) (b : Fin 1024) (j : Fin 128) (k : Fin 64) :
    ridx_main_v37 (ix3 s b j) k = ix2 j k :=
  funext fun a => Fin.ext (by match a with | ⟨0, _⟩ => rfl | ⟨1, _⟩ => rfl)
theorem critic_l1_bias (s : Fin 256) (b : Fin 1024) (j : Fin 128) :
    idx_main_v38 (idx_main_v39 (ix3 s b j)) = ix1 j :=
  funext fun a => Fin.ext (by match a with | ⟨0, _⟩ => rfl)
theorem critic_l2_lhs (s : Fin 256) (b : Fin 1024) (j k : Fin 128) :
    lidx_main_v42 (ix3 s b j) k = ix3 s b k :=
  funext fun a => Fin.ext (by match a with | ⟨0, _⟩ => rfl | ⟨1, _⟩ => rfl | ⟨2, _⟩ => rfl)
theorem critic_l2_rhs (s : Fin 256) (b : Fin 1024) (j k : Fin 128) :
    ridx_main_v42 (ix3 s b j) k = ix2 j k :=
  funext fun a => Fin.ext (by match a with | ⟨0, _⟩ => rfl | ⟨1, _⟩ => rfl)
theorem critic_l2_bias (s : Fin 256) (b : Fin 1024) (j : Fin 128) :
    idx_main_v43 (idx_main_v44 (ix3 s b j)) = ix1 j :=
  funext fun a => Fin.ext (by match a with | ⟨0, _⟩ => rfl)
theorem critic_g_lhs (s : Fin 256) (b : Fin 1024) (g : Fin 512) (k : Fin 128) :
    lidx_main_v47 (ix3 s b g) k = ix3 s b k :=
  funext fun a => Fin.ext (by match a with | ⟨0, _⟩ => rfl | ⟨1, _⟩ => rfl | ⟨2, _⟩ => rfl)
theorem critic_g_rhs (s : Fin 256) (b : Fin 1024) (g : Fin 512) (k : Fin 128) :
    ridx_main_v47 (ix3 s b g) k = ix2 g k :=
  funext fun a => Fin.ext (by match a with | ⟨0, _⟩ => rfl | ⟨1, _⟩ => rfl)
theorem critic_g_bias_ih (s : Fin 256) (b : Fin 1024) (g : Fin 512) :
    idx_main_v48 (idx_main_v49 (ix3 s b g)) = ix1 g :=
  funext fun a => Fin.ext (by match a with | ⟨0, _⟩ => rfl)
theorem critic_g_bias_hh (s : Fin 256) (b : Fin 1024) (g : Fin 512) :
    idx_main_v51 (idx_main_v52 (ix3 s b g)) = ix1 g :=
  funext fun a => Fin.ext (by match a with | ⟨0, _⟩ => rfl)

theorem critic_slice_in (s : Fin 256) (b : Fin 1024) (j : Fin 128) :
    idx_main_v54 (ix3 s b j) = ix3 s b (⟨j.val, by omega⟩ : Fin 512) :=
  funext fun a => Fin.ext (by match a with | ⟨0, _⟩ => rfl | ⟨1, _⟩ => rfl | ⟨2, _⟩ => rfl)
theorem critic_slice_cand (s : Fin 256) (b : Fin 1024) (j : Fin 128) :
    idx_main_v56 (ix3 s b j) = ix3 s b (⟨256 + j.val, by omega⟩ : Fin 512) :=
  funext fun a => Fin.ext (by match a with | ⟨0, _⟩ => rfl | ⟨1, _⟩ => rfl | ⟨2, _⟩ => rfl)
theorem critic_slice_out (s : Fin 256) (b : Fin 1024) (j : Fin 128) :
    idx_main_v57 (ix3 s b j) = ix3 s b (⟨384 + j.val, by omega⟩ : Fin 512) :=
  funext fun a => Fin.ext (by match a with | ⟨0, _⟩ => rfl | ⟨1, _⟩ => rfl | ⟨2, _⟩ => rfl)

/-- The first dense layer of row `(s, b)`. -/
theorem critic_layer1 (x0 : (⟨S256x1024x64, .f32⟩ : BufTy).Contents (Elt Ideal)) (x5 : (⟨S128x64, .f32⟩ : BufTy).Contents (Elt Ideal))
    (x6 : (⟨S128, .f32⟩ : BufTy).Contents (Elt Ideal)) (s : Fin 256) (b : Fin 1024) (j : Fin 128) :
    val_main_v41 (F := Ideal) x0 x5 x6 (ix3 s b j)
      = Cert.Spec.layer (fun k => x0 (ix3 s b k)) (fun j k => x5 (ix2 j k)) (fun j => x6 (ix1 j)) j := by
  simp only [val_main_v41_apply, val_main_v40_apply, val_main_v37_apply, val_main_v39_apply, val_main_v38_apply,
    val_main_call2_v0_apply, val_main_call2_cst_apply, critic_l1_lhs, critic_l1_rhs, critic_l1_bias,
    Ideal.addf_def, Ideal.maximumf_def, Ideal.ofBits_def, Cert.Spec.layer, Cert.Spec.affine, Cert.Spec.zero]

/-- The second dense layer of row `(s, b)`. -/
theorem critic_layer2 (x0 : (⟨S256x1024x64, .f32⟩ : BufTy).Contents (Elt Ideal)) (x5 : (⟨S128x64, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (s : Fin 256) (b : Fin 1024) (j : Fin 128) :
    val_main_v46 (F := Ideal) x0 x5 x6 x7 x8 (ix3 s b j)
      = Cert.Spec.layer (Cert.Spec.layer (fun k => x0 (ix3 s b k)) (fun j k => x5 (ix2 j k)) (fun j => x6 (ix1 j)))
          (fun j k => x7 (ix2 j k)) (fun j => x8 (ix1 j)) j := by
  simp only [val_main_v46_apply, val_main_v45_apply, val_main_v42_apply, val_main_v44_apply, val_main_v43_apply,
    val_main_call3_v0_apply, val_main_call3_cst_apply, critic_l2_lhs, critic_l2_rhs, critic_l2_bias, critic_layer1,
    Ideal.addf_def, Ideal.maximumf_def, Ideal.ofBits_def, Cert.Spec.layer, Cert.Spec.affine, Cert.Spec.zero]

/-- The gate pre-activations of row `(s, b)`. -/
theorem critic_gates (x0 : (⟨S256x1024x64, .f32⟩ : BufTy).Contents (Elt Ideal)) (x5 : (⟨S128x64, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x13 : (⟨S512x128, .f32⟩ : BufTy).Contents (Elt Ideal))
    (x15 x16 : (⟨S512, .f32⟩ : BufTy).Contents (Elt Ideal)) (s : Fin 256) (b : Fin 1024) (g : Fin 512) :
    val_main_v53 (F := Ideal) x0 x5 x6 x7 x8 x13 x15 x16 (ix3 s b g)
      = Cert.Spec.gates (fun k => x0 (ix3 s b k)) (fun j k => x5 (ix2 j k)) (fun j => x6 (ix1 j))
          (fun j k => x7 (ix2 j k)) (fun j => x8 (ix1 j)) (fun g k => x13 (ix2 g k))
          (fun g => x15 (ix1 g)) (fun g => x16 (ix1 g)) g := by
  simp only [val_main_v53_apply, val_main_v50_apply, val_main_v52_apply, val_main_v51_apply, val_main_v47_apply,
    val_main_v49_apply, val_main_v48_apply, critic_g_lhs, critic_g_rhs, critic_g_bias_ih, critic_g_bias_hh, critic_layer2,
    Ideal.addf_def, Cert.Spec.gates, Cert.Spec.affine]

/-- The cell output of row `(s, b)`. -/
theorem critic_cell (x0 : (⟨S256x1024x64, .f32⟩ : BufTy).Contents (Elt Ideal)) (x5 : (⟨S128x64, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x13 : (⟨S512x128, .f32⟩ : BufTy).Contents (Elt Ideal))
    (x15 x16 : (⟨S512, .f32⟩ : BufTy).Contents (Elt Ideal)) (s : Fin 256) (b : Fin 1024) (j : Fin 128) :
    val_main_v73 (F := Ideal) x0 x5 x6 x7 x8 x13 x15 x16 (ix3 s b j)
      = Cert.Spec.rowBranch x0 x5 x6 x7 x8 x13 x15 x16 s b j := by
  simp only [val_main_v73_apply, val_main_v72_apply, val_main_v71_apply, val_main_v70_apply, val_main_v69_apply,
    val_main_v68_apply, val_main_v67_apply, val_main_v66_apply, val_main_v65_apply, val_main_v64_apply,
    val_main_v63_apply, val_main_v62_apply, val_main_v61_apply, val_main_v60_apply, val_main_v59_apply,
    val_main_v58_apply, val_main_v57_apply, val_main_v56_apply, val_main_v54_apply,
    val_main_cst_3_apply, val_main_cst_4_apply, val_main_cst_5_apply, val_main_cst_6_apply,
    critic_slice_in, critic_slice_cand, critic_slice_out, critic_gates,
    Ideal.mulf_def, Ideal.addf_def, Ideal.hostDivf_def, Ideal.hostNegf_def, Ideal.negf_def, Ideal.hostUnary_exp_def,
    Ideal.hostUnary_tanh_def, Ideal.ofBits_def, one_bits,
    Cert.Spec.rowBranch, Cert.Spec.branch, Cert.Spec.cell, Ideal.logistic]

/-! ### The head on the critic's cell output -/

theorem value_lhs (s : Fin 256) (b : Fin 1024) (u : Fin 1) (k : Fin 128) :
    lidx_main_v83 (ix3 s b u) k = ix3 s b k :=
  funext fun d => Fin.ext (by match d with | ⟨0, _⟩ => rfl | ⟨1, _⟩ => rfl | ⟨2, _⟩ => rfl)
theorem value_rhs (s : Fin 256) (b : Fin 1024) (u : Fin 1) (k : Fin 128) :
    ridx_main_v83 (ix3 s b u) k = ix2 u k :=
  funext fun d => Fin.ext (by match d with | ⟨0, _⟩ => rfl | ⟨1, _⟩ => rfl)
/-- The one bias entry: the only index of a one-entry axis is zero. -/
theorem value_bias (s : Fin 256) (b : Fin 1024) (u : Fin 1) :
    idx_main_v84 (idx_main_v85 (ix3 s b u)) = ix1 u :=
  funext fun d => Fin.ext (by match d with | ⟨0, _⟩ => exact (Fin.val_eq_zero u).symm)

/-! ### The three results -/

theorem mean_eq (x0 : (⟨S256x1024x64, .f32⟩ : BufTy).Contents (Elt Ideal)) (x1 : (⟨S128x64, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x9 : (⟨S512x128, .f32⟩ : BufTy).Contents (Elt Ideal))
    (x11 x12 : (⟨S512, .f32⟩ : BufTy).Contents (Elt Ideal)) (x17 : (⟨S8x128, .f32⟩ : BufTy).Contents (Elt Ideal))
    (x18 : (⟨S8, .f32⟩ : BufTy).Contents (Elt Ideal)) :
    val_main_v77 (F := Ideal) x0 x1 x2 x3 x4 x9 x11 x12 x17 x18 = Cert.Spec.meanArr x0 x1 x2 x3 x4 x9 x11 x12 x17 x18 := by
  funext i
  obtain ⟨s, b, a, rfl⟩ : ∃ (s : Fin 256) (b : Fin 1024) (a : Fin 8), i = ix3 s b a := ⟨i 0, i 1, i 2, eq_ix3 i⟩
  simp only [val_main_v77_apply, val_main_v74_apply, val_main_v76_apply, val_main_v75_apply,
    mean_lhs, mean_rhs, mean_bias, actor_cell, Ideal.addf_def, Cert.Spec.meanArr, Cert.Spec.affine]

theorem std_eq (x0 : (⟨S256x1024x64, .f32⟩ : BufTy).Contents (Elt Ideal)) (x1 : (⟨S128x64, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x9 : (⟨S512x128, .f32⟩ : BufTy).Contents (Elt Ideal))
    (x11 x12 : (⟨S512, .f32⟩ : BufTy).Contents (Elt Ideal)) (x19 : (⟨S8x128, .f32⟩ : BufTy).Contents (Elt Ideal))
    (x20 : (⟨S8, .f32⟩ : BufTy).Contents (Elt Ideal)) :
    val_main_v82 (F := Ideal) x0 x1 x2 x3 x4 x9 x11 x12 x19 x20 = Cert.Spec.stdArr x0 x1 x2 x3 x4 x9 x11 x12 x19 x20 := by
  funext i
  obtain ⟨s, b, a, rfl⟩ : ∃ (s : Fin 256) (b : Fin 1024) (a : Fin 8), i = ix3 s b a := ⟨i 0, i 1, i 2, eq_ix3 i⟩
  simp only [val_main_v82_apply, val_main_v81_apply, val_main_v78_apply, val_main_v80_apply, val_main_v79_apply,
    std_lhs, std_rhs, std_bias, actor_cell, Ideal.addf_def, Ideal.hostUnary_exp_def, Cert.Spec.stdArr, Cert.Spec.affine]

theorem value_eq (x0 : (⟨S256x1024x64, .f32⟩ : BufTy).Contents (Elt Ideal)) (x5 : (⟨S128x64, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x13 : (⟨S512x128, .f32⟩ : BufTy).Contents (Elt Ideal))
    (x15 x16 : (⟨S512, .f32⟩ : BufTy).Contents (Elt Ideal)) (x21 : (⟨S1x128, .f32⟩ : BufTy).Contents (Elt Ideal))
    (x22 : (⟨S1, .f32⟩ : BufTy).Contents (Elt Ideal)) :
    val_main_v86 (F := Ideal) x0 x5 x6 x7 x8 x13 x15 x16 x21 x22 = Cert.Spec.valueArr x0 x5 x6 x7 x8 x13 x15 x16 x21 x22 := by
  funext i
  obtain ⟨s, b, u, rfl⟩ : ∃ (s : Fin 256) (b : Fin 1024) (u : Fin 1), i = ix3 s b u := ⟨i 0, i 1, i 2, eq_ix3 i⟩
  simp only [val_main_v86_apply, val_main_v83_apply, val_main_v85_apply, val_main_v84_apply,
    value_lhs, value_rhs, value_bias, critic_cell, Ideal.addf_def, Cert.Spec.valueArr, Cert.Spec.affine]

end Cert.ReferenceIdeal.RefValue

end
-- ==== Proof.lean ====
/-
  The certificate's five claims.

  Both programs compute, for every row `(s, b)` of the state, two small networks — two dense layers with a
  rectifier, a gate layer, and the cell output `σ(o) · tanh (σ(i) · tanh g)` of a zero initial state — and three
  heads on them (`Spec`).  The kernel does it on blocks of 2048 flattened rows with transposed weights and
  casts to a narrow float format that are the identity over the extended reals; the reference does it on the
  whole `256 × 1024` grid with the weights as given and spells the logistic function as `1 / (1 + exp (-x))`.
  Index by index both are the same sums, so the two runs end with equal results; no law is used that needs
  finite inputs, and the idealization rewrote nothing, so `preserves` is trivial.  The kernel programs' frames
  are the generated ones; the reference's frame is its generated run with the results dropped.
-/
import proofs.«127207_j85916525789512_1_alg».proof.Defs
import proofs.«127207_j85916525789512_1_alg».proof.Proof.Gen.Kernel
import proofs.«127207_j85916525789512_1_alg».proof.Proof.Gen.Kernel.Skeleton
import proofs.«127207_j85916525789512_1_alg».proof.Proof.Gen.Kernel.Launch
import proofs.«127207_j85916525789512_1_alg».proof.Proof.Gen.Kernel.Points
import proofs.«127207_j85916525789512_1_alg».proof.Proof.Gen.Kernel.Frame
import proofs.«127207_j85916525789512_1_alg».proof.Proof.Gen.KernelIdeal
import proofs.«127207_j85916525789512_1_alg».proof.Proof.Gen.KernelIdeal.Skeleton
import proofs.«127207_j85916525789512_1_alg».proof.Proof.Gen.KernelIdeal.Launch
import proofs.«127207_j85916525789512_1_alg».proof.Proof.Gen.KernelIdeal.Points
import proofs.«127207_j85916525789512_1_alg».proof.Proof.Gen.KernelIdeal.Frame
import proofs.«127207_j85916525789512_1_alg».proof.Proof.Gen.ReferenceIdeal
import proofs.«127207_j85916525789512_1_alg».proof.Proof.Gen.ReferenceIdeal.Run
import proofs.«127207_j85916525789512_1_alg».proof.Proof.Gen.ReferenceIdeal.Read
import proofs.«127207_j85916525789512_1_alg».proof.Proof.Gen.Pre_finite_inputs
import proofs.«127207_j85916525789512_1_alg».proof.Proof.KernelRun
import proofs.«127207_j85916525789512_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The reference's mean, from a memory that agrees with the kernel's on the arguments it reads. -/
theorem ref_mean
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v77 m' c
      = Cert.Spec.meanArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  rw [Cert.ReferenceIdeal.Read.val_main_v77_eq, Cert.ReferenceIdeal.RefValue.mean_eq, e0, e1, e2, e3, e4, e9, e11, e12, e17, e18]

/-- The reference's std, from a memory that agrees with the kernel's on the arguments it reads. -/
theorem ref_std
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.res_main_v82 m' c
      = Cert.Spec.stdArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  rw [Cert.ReferenceIdeal.Read.val_main_v82_eq, Cert.ReferenceIdeal.RefValue.std_eq, e0, e1, e2, e3, e4, e9, e11, e12, e19, e20]

/-- The reference's value, from a memory that agrees with the kernel's on the arguments it reads. -/
theorem ref_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Value.res_main_v86 m' c
      = Cert.Spec.valueArr (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  rw [Cert.ReferenceIdeal.Read.val_main_v86_eq, Cert.ReferenceIdeal.RefValue.value_eq, e0, e5, e6, e7, e8, e13, e15, e16, e21, e22]

/-- From memories agreeing on the arguments both runs end at the specification's three arrays of those arguments. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20, e21, e22⟩ := hagree c
  exact ⟨(h c).1.trans (ref_mean m m' c e0 e1 e2 e3 e4 e9 e11 e12 e17 e18),
    (h c).2.1.trans (ref_std m m' c e0 e1 e2 e3 e4 e9 e11 e12 e19 e20),
    (h c).2.2.1.trans (ref_value m m' c e0 e5 e6 e7 e8 e13 e15 e16 e21 e22),
    (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
